-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S4096x4096 : Shape := ⟨2, ![4096, 4096]⟩
abbrev S1x4096 : Shape := ⟨2, ![1, 4096]⟩

abbrev nBuf : Space → Nat
  | .hbm => 27
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x4096, .bf16⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1x1024, .f32⟩
  | .local _ .vmem, ⟨33, _⟩ => ⟨S1x1024, .f32⟩
  | .local _ .vmem, ⟨34, _⟩ => ⟨S1024x1024, .f32⟩
  | .local _ .vmem, ⟨35, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  transposes_S1024x1024_p1_0_S1024x1024 : S1024x1024.Transposes [1, 0] S1024x1024
  packedbf16_S1024x1024_S1024x1024_0_0 : (Rect.unit (s := S1024x1024) ![0, 0] S1024x1024.size inb_S1024x1024_S1024x1024_0_0).PackedRows (EltTy.packing .bf16)
  reduces_S1024x1024_S1024 : S1024x1024.Reduces [0] S1024
  broadcasts_S1x1024_S1024x1024 : S1x1024.Broadcasts S1024x1024
  dot_S512x1024_S1024x1024_S512x1024_1_0_0_1_n_n_wf : DotDims.WF S512x1024 S1024x1024 S512x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S4096x1024.size a
  hwx0_10 : ∀ i : grid0.Coords, EltTy.bits .bf16 = 32 ∨ (Rect.block (s := S4096x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S4096x1024.size a
  hwx0_11 : ∀ i : grid0.Coords, EltTy.bits .bf16 = 32 ∨ (Rect.block (s := S4096x1024) S512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v9_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_0) S1024x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10_2) S1x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v10_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9_2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S1x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  Column-softmax attention over the extended reals: the functions both programs compute, as matrices
  `Fin a → Fin b → EReal`.

  Both programs project `q, k, v` by three linear layers (`lin`: `x Wᵀ + b`), take the scores `Q Kᵀ / 4096`,
  normalise each COLUMN of the scores by a softmax over the rows, and multiply by `V`.

  The kernel's arrangement: the scale `1/4096` is folded into `Q` before the product (`dotT` of the scaled `Q`);
  a column's maximum and its sum of exponentials are accumulated over four blocks of 1024 rows with the running
  rescaling `l ← l · exp (m_old − m_new) + Σ exp (s − m_new)` (`mrun`, `lrun`); the normalisation is one subtraction of
  `m + log l` inside the exponential (`shiftK`); and the product with `V` is accumulated over four blocks of 1024 columns
  (`pterm`, `outK`).

  The reference's arrangement: the quotient by 4096 after the product, one maximum and one sum over all 4096 rows
  (`mxR`, `smR`), a quotient by the sum, one product with `V` (`outR`).
-/
import Idealize.ShloMosaic.PureOps.Ideal
import Idealize.ShloMosaic.PureOps.Ideal.Laws
import Idealize.ShloMosaic.Lib.ValueIdx

noncomputable section

open Idealize.ShloMosaic

namespace Cert.ColSoftmax

/-- A matrix of extended reals. -/
abbrev Mat (a b : ℕ) := Fin a → Fin b → EReal

/-- A rank-2 array read as a matrix. -/
def mat {a b : ℕ} (x : (⟨2, ![a, b]⟩ : Shape).Idx → EReal) : Mat a b := fun i j => x (ValueIdx.ix2 i j)

/-- A matrix as a rank-2 array. -/
def unmat {a b : ℕ} (f : Mat a b) : (⟨2, ![a, b]⟩ : Shape).Idx → EReal := fun idx => f (idx 0) (idx 1)

theorem unmat_mat {a b : ℕ} (x : (⟨2, ![a, b]⟩ : Shape).Idx → EReal) : unmat (mat x) = x := by
  funext idx
  exact congrArg x (ValueIdx.eq_ix2 idx).symm

theorem mat_unmat {a b : ℕ} (f : Mat a b) : mat (unmat f) = f := rfl

/-- A rank-1 array read as a vector. -/
def vec {a : ℕ} (x : (⟨1, ![a]⟩ : Shape).Idx → EReal) : Fin a → EReal := fun i => x (ValueIdx.ix1 i)

/-! ## The float constants of the two programs -/

/-- `-∞`, the pattern both maxima start from. -/
def ninf : EReal := Ideal.ofBits .f32 0xFF800000#32
/-- `+0`, the pattern both sums start from. -/
def zero : EReal := Ideal.ofBits .f32 0x00000000#32
/-- `4096`, the reference's divisor. -/
def c4096 : EReal := Ideal.ofBits .f32 0x45800000#32
/-- `2⁻¹²`, the kernel's factor. -/
def cinv : EReal := Ideal.ofBits .f32 0x39800000#32

theorem ninf_eq : ninf = ⊥ := by simp [ninf, Ideal.ofBits, Ideal.ieee]
theorem zero_eq : zero = 0 := by simp [zero, Ideal.ofBits, Ideal.ieee]

/-! ## The projections and the scores -/

/-- A linear layer `x Wᵀ + b`. -/
def lin (x : Mat 4096 1024) (W : Mat 1024 1024) (b : Fin 1024 → EReal) : Mat 4096 1024 :=
  fun i d => (∑ k : Fin 1024, x i k * W d k) + b d

/-- `A Bᵀ`. -/
def dotT (A B : Mat 4096 1024) : Mat 4096 4096 := fun i j => ∑ d : Fin 1024, A i d * B j d

/-- The kernel's `Q`: the projection times `2⁻¹²`. -/
def scaled (Q : Mat 4096 1024) : Mat 4096 1024 := fun i d => Q i d * cinv

/-- The reference's scores: the product divided by 4096. -/
def scoreR (Q K : Mat 4096 1024) : Mat 4096 4096 := fun i j => Ideal.div (dotT Q K i j) c4096

/-! ## The kernel's column statistics, block by block -/

/-- Row (or column) `r` of block `b` of 1024. -/
def rowAt (b : ℕ) (r : Fin 1024) : Fin 4096 := ⟨(1024 * b + r.val) % 4096, Nat.mod_lt _ (by norm_num)⟩

/-- The maximum of column `j` over the rows of block `b`, from `-∞`. -/
def bmax (S : Mat 4096 4096) (j : Fin 4096) (b : ℕ) : EReal :=
  (Finset.univ : Finset (Fin 1024)).fold max ninf (fun r => S (rowAt b r) j)

/-- The running maximum of column `j` after blocks `0 … n`. -/
def mrun (S : Mat 4096 4096) (j : Fin 4096) : ℕ → EReal
  | 0 => max ninf (bmax S j 0)
  | n + 1 => max (mrun S j n) (bmax S j (n + 1))

/-- The sum over the rows of block `b` of `exp (s − μ)`. -/
def bsum (S : Mat 4096 4096) (j : Fin 4096) (b : ℕ) (μ : EReal) : EReal :=
  ∑ r : Fin 1024, Ideal.exp (S (rowAt b r) j - μ)

/-- The running rescaled sum of exponentials of column `j` after blocks `0 … n`. -/
def lrun (S : Mat 4096 4096) (j : Fin 4096) : ℕ → EReal
  | 0 => zero * Ideal.exp (ninf - mrun S j 0) + bsum S j 0 (mrun S j 0)
  | n + 1 => lrun S j n * Ideal.exp (mrun S j n - mrun S j (n + 1)) + bsum S j (n + 1) (mrun S j (n + 1))

/-- What the kernel subtracts inside the exponential: `m + log l` after all four blocks. -/
def shiftK (S : Mat 4096 4096) (j : Fin 4096) : EReal := mrun S j 3 + Ideal.log (lrun S j 3)

/-- The kernel's product of the normalised block `kb` of columns with the matching rows of `V`. -/
def pterm (S : Mat 4096 4096) (sh : Fin 4096 → EReal) (Vv : Mat 4096 1024) (i : Fin 4096) (d : Fin 1024) (kb : ℕ) : EReal :=
  ∑ jj : Fin 1024, Ideal.exp (S i (rowAt kb jj) - sh (rowAt kb jj)) * Vv (rowAt kb jj) d

/-- The kernel's result: from zero, the four blocks' products added in order. -/
def outK (S : Mat 4096 4096) (Vv : Mat 4096 1024) : Mat 4096 1024 :=
  fun i d => zero + ∑ s ∈ Finset.range 4, pterm S (shiftK S) Vv i d s

/-! ## The reference's column softmax -/

/-- The maximum of column `j` over all rows. -/
def mxR (S : Mat 4096 4096) (j : Fin 4096) : EReal :=
  max ninf ((Finset.univ : Finset (Fin 4096)).fold max ninf (fun i => S i j))

def eR (S : Mat 4096 4096) (i j : Fin 4096) : EReal := Ideal.exp (S i j - mxR S j)

def smR (S : Mat 4096 4096) (j : Fin 4096) : EReal := zero + ∑ i : Fin 4096, eR S i j

def outR (S : Mat 4096 4096) (Vv : Mat 4096 1024) : Mat 4096 1024 :=
  fun i d => ∑ j : Fin 4096, Ideal.div (eR S i j) (smR S j) * Vv j d

/-! ## The two programs, whole -/

def kernelOut (q k v : Mat 4096 1024) (Wq Wk Wv : Mat 1024 1024) (bq bk bv : Fin 1024 → EReal) : Mat 4096 1024 :=
  outK (dotT (scaled (lin q Wq bq)) (lin k Wk bk)) (lin v Wv bv)

def refOut (q k v : Mat 4096 1024) (Wq Wk Wv : Mat 1024 1024) (bq bk bv : Fin 1024 → EReal) : Mat 4096 1024 :=
  outR (scoreR (lin q Wq bq) (lin k Wk bk)) (lin v Wv bv)

/-- An extended real that is a real number. -/
def Fin' (x : EReal) : Prop := x ≠ ⊥ ∧ x ≠ ⊤

end Cert.ColSoftmax

end
-- ==== Proof.MathStats.lean ====
/-
  The kernel's blockwise column statistics are the reference's whole-column ones.

  `mrun S j 3`, the running maximum over four blocks of 1024 rows, is the maximum over all 4096 rows (a fold of `max`
  regrouped; no finiteness is needed). `lrun S j 3`, the running sum rescaled by `exp (m_old − m_new)` at each block,
  is `Σᵢ exp (S i j − M)` at the final maximum `M`, when every score is a real number: by induction on the block,
  `lrun n = Σ_{rows of blocks ≤ n} exp (s − mrun n)`, since `exp (s − m_old) · exp (m_old − m_new) = exp (s − m_new)` and
  the product distributes over a finite sum of reals.
-/
import proofs.«402450_j31344671326318_3_alg».proof.Proof.Spec
import Mathlib.Data.Finset.Fold
import Mathlib.Data.Fintype.BigOperators
import Mathlib.Logic.Equiv.Fin.Basic
import Mathlib.Analysis.SpecialFunctions.Exp

noncomputable section

open Idealize.ShloMosaic

namespace Cert.ColSoftmax

namespace Stats

/-! ## The four blocks of 1024 rows tile the 4096 rows -/

/-- Below block 4 the row index `1024 b + r` does not wrap. -/
theorem rowAt_val {b : ℕ} (hb : b < 4) (r : Fin 1024) : (rowAt b r).val = 1024 * b + r.val := by
  have hr := r.isLt
  simp only [rowAt]
  omega

/-- Every row lies in one of the four blocks. -/
theorem exists_rowAt (i : Fin 4096) : ∃ b, b < 4 ∧ ∃ r : Fin 1024, rowAt b r = i := by
  have hi := i.isLt
  refine ⟨i.val / 1024, by omega, ⟨i.val % 1024, Nat.mod_lt _ (by norm_num)⟩, ?_⟩
  apply Fin.ext
  simp only [rowAt]
  omega

/-- A sum over the four blocks, block by block, is the sum over all rows: `(b, r) ↦ 1024 b + r` is a bijection
    `Fin 4 × Fin 1024 ≃ Fin 4096`. -/
theorem sum_rowAt {M : Type*} [AddCommMonoid M] (f : Fin 4096 → M) :
    ∑ s ∈ Finset.range 4, ∑ r : Fin 1024, f (rowAt s r) = ∑ i : Fin 4096, f i := by
  rw [← Fin.sum_univ_eq_sum_range (fun s => ∑ r : Fin 1024, f (rowAt s r)) 4, ← Fintype.sum_prod_type']
  refine Fintype.sum_equiv (finProdFinEquiv : Fin 4 × Fin 1024 ≃ Fin 4096) _ _ (fun p => ?_)
  congr 1
  apply Fin.ext
  rw [rowAt_val p.1.isLt]
  show _ = p.2.val + 1024 * p.1.val
  omega

/-! ## Maxima -/

theorem max_ninf (x : EReal) : max ninf x = x := by
  rw [ninf_eq]; exact max_bot_left x

/-- A row's score is at most its block's maximum. -/
theorem le_bmax (S : Mat 4096 4096) (j : Fin 4096) (b : ℕ) (r : Fin 1024) : S (rowAt b r) j ≤ bmax S j b :=
  (Finset.le_fold_max _).mpr (Or.inr ⟨r, Finset.mem_univ r, le_rfl⟩)

/-- A block's maximum is at most the running maximum of any later stage. -/
theorem bmax_le_mrun (S : Mat 4096 4096) (j : Fin 4096) {b n : ℕ} (h : b ≤ n) : bmax S j b ≤ mrun S j n := by
  induction n with
  | zero =>
    obtain rfl : b = 0 := by omega
    exact le_max_right _ _
  | succ n ih =>
    rcases Nat.lt_or_ge b (n + 1) with h' | h'
    · exact le_trans (ih (by omega)) (le_max_left _ _)
    · obtain rfl : b = n + 1 := by omega
      exact le_max_right _ _

/-- The running maximum is below any bound of the blocks seen so far. -/
theorem mrun_le (S : Mat 4096 4096) (j : Fin 4096) (c : EReal) (n : ℕ) (h : ∀ b, b ≤ n → bmax S j b ≤ c) :
    mrun S j n ≤ c := by
  induction n with
  | zero => exact max_le (by rw [ninf_eq]; exact bot_le) (h 0 le_rfl)
  | succ n ih => exact max_le (ih (fun b hb => h b (by omega))) (h (n + 1) le_rfl)

/-! ## Columns of real scores -/

/-- A real extended real is the coercion of its real part. -/
theorem coe_of_fin {x : EReal} (h : Fin' x) : ((x.toReal : ℝ) : EReal) = x := EReal.coe_toReal h.2 h.1

/-- The maximum of two reals is a real. -/
theorem max_fin {a b : EReal} (ha : Fin' a) (hb : Fin' b) : Fin' (max a b) := by
  rcases max_choice a b with h | h <;> rw [h] <;> assumption

/-- The maximum, from `-∞`, of finitely many reals — at least one — is a real: it is above one of them and below `+∞`. -/
theorem fold_max_fin {ι : Type*} (s : Finset ι) (hs : s.Nonempty) (f : ι → EReal) (hf : ∀ x ∈ s, Fin' (f x)) :
    Fin' (s.fold max ninf f) := by
  constructor
  · obtain ⟨x, hx⟩ := hs
    exact ((Finset.lt_fold_max _).mpr (Or.inr ⟨x, hx, bot_lt_iff_ne_bot.mpr (hf x hx).1⟩)).ne'
  · exact ((Finset.fold_max_lt _).mpr
      ⟨by rw [ninf_eq]; exact bot_lt_top, fun x hx => lt_top_iff_ne_top.mpr (hf x hx).2⟩).ne

theorem bmax_fin (S : Mat 4096 4096) (hS : ∀ i j, Fin' (S i j)) (j : Fin 4096) (b : ℕ) : Fin' (bmax S j b) :=
  fold_max_fin Finset.univ ⟨⟨0, by norm_num⟩, Finset.mem_univ _⟩ _ (fun _ _ => hS _ _)

theorem mrun_fin (S : Mat 4096 4096) (hS : ∀ i j, Fin' (S i j)) (j : Fin 4096) (n : ℕ) : Fin' (mrun S j n) := by
  induction n with
  | zero =>
    show Fin' (max ninf (bmax S j 0))
    rw [max_ninf]
    exact bmax_fin S hS j 0
  | succ n ih => exact max_fin ih (bmax_fin S hS j (n + 1))

end Stats

open Stats

/-- The running maximum after the fourth block is the maximum over all rows. -/
theorem mrun_eq_mxR (S : Mat 4096 4096) (j : Fin 4096) : mrun S j 3 = mxR S j := by
  rw [mxR, max_ninf]
  apply le_antisymm
  · refine mrun_le S j _ 3 (fun b _ => ?_)
    refine (Finset.fold_max_le _).mpr ⟨by rw [ninf_eq]; exact bot_le, fun r _ => ?_⟩
    exact (Finset.le_fold_max _).mpr (Or.inr ⟨rowAt b r, Finset.mem_univ _, le_rfl⟩)
  · refine (Finset.fold_max_le _).mpr ⟨by rw [ninf_eq]; exact bot_le, fun i _ => ?_⟩
    obtain ⟨b, hb, r, rfl⟩ := exists_rowAt i
    exact le_trans (le_bmax S j b r) (bmax_le_mrun S j (by omega))

/-- The maximum of a column of reals is a real. -/
theorem mxR_fin (S : Mat 4096 4096) (hS : ∀ i j, Fin' (S i j)) (j : Fin 4096) : Fin' (mxR S j) := by
  rw [mxR, max_ninf]
  exact fold_max_fin Finset.univ ⟨⟨0, by norm_num⟩, Finset.mem_univ _⟩ _ (fun i _ => hS i j)

namespace Stats

/-! ## Sums of exponentials of reals -/

/-- The coercion of a finite sum of reals is the sum of the coercions. -/
theorem coe_sum {ι : Type*} (s : Finset ι) (f : ι → ℝ) :
    ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The exponential of a difference of reals. -/
theorem exp_sub_coe (a m : ℝ) : Ideal.exp ((a : EReal) - (m : EReal)) = ((Real.exp (a - m) : ℝ) : EReal) := by
  rw [← EReal.coe_sub, Ideal.exp_coe]

/-- A block's sum of exponentials, at a real shift, is a real sum. -/
theorem bsum_coe (S : Mat 4096 4096) (hS : ∀ i j, Fin' (S i j)) (j : Fin 4096) (b : ℕ) (m : ℝ) :
    bsum S j b (m : EReal) = ((∑ r : Fin 1024, Real.exp ((S (rowAt b r) j).toReal - m) : ℝ) : EReal) := by
  rw [bsum, coe_sum]
  refine Finset.sum_congr rfl (fun r _ => ?_)
  rw [← exp_sub_coe, coe_of_fin (hS (rowAt b r) j)]

/-- The running sum after block `n` is the sum, over the rows of blocks `0 … n`, of `exp (s − mrun n)`:
    at each block the old sum is rescaled by `exp (m_old − m_new)`, and
    `exp (s − m_old) · exp (m_old − m_new) = exp (s − m_new)`. -/
theorem lrun_coe (S : Mat 4096 4096) (hS : ∀ i j, Fin' (S i j)) (j : Fin 4096) (n : ℕ) :
    lrun S j n = ((∑ b ∈ Finset.range (n + 1), ∑ r : Fin 1024,
      Real.exp ((S (rowAt b r) j).toReal - (mrun S j n).toReal) : ℝ) : EReal) := by
  induction n with
  | zero =>
    obtain ⟨m, hm⟩ : ∃ m : ℝ, mrun S j 0 = (m : EReal) := ⟨_, (coe_of_fin (mrun_fin S hS j 0)).symm⟩
    rw [lrun, hm, zero_eq, zero_mul, zero_add, bsum_coe S hS, EReal.toReal_coe, Finset.sum_range_succ,
      Finset.sum_range_zero, zero_add]
  | succ n ih =>
    obtain ⟨m, hm⟩ : ∃ m : ℝ, mrun S j n = (m : EReal) := ⟨_, (coe_of_fin (mrun_fin S hS j n)).symm⟩
    obtain ⟨m', hm'⟩ : ∃ m' : ℝ, mrun S j (n + 1) = (m' : EReal) := ⟨_, (coe_of_fin (mrun_fin S hS j (n + 1))).symm⟩
    rw [hm, EReal.toReal_coe] at ih
    rw [lrun, ih, hm, hm', exp_sub_coe, bsum_coe S hS, EReal.toReal_coe, ← EReal.coe_mul, ← EReal.coe_add]
    congr 1
    rw [Finset.sum_range_succ _ (n + 1), Finset.sum_mul]
    congr 1
    refine Finset.sum_congr rfl (fun b _ => ?_)
    rw [Finset.sum_mul]
    refine Finset.sum_congr rfl (fun r _ => ?_)
    rw [← Real.exp_add]
    congr 1
    ring

/-- The reference's sum of exponentials is a real sum. -/
theorem smR_coe (S : Mat 4096 4096) (hS : ∀ i j, Fin' (S i j)) (j : Fin 4096) :
    smR S j = ((∑ i : Fin 4096, Real.exp ((S i j).toReal - (mxR S j).toReal) : ℝ) : EReal) := by
  obtain ⟨m, hm⟩ : ∃ m : ℝ, mxR S j = (m : EReal) := ⟨_, (coe_of_fin (mxR_fin S hS j)).symm⟩
  rw [smR, zero_eq, zero_add, coe_sum]
  refine Finset.sum_congr rfl (fun i _ => ?_)
  rw [eR, hm, EReal.toReal_coe, ← exp_sub_coe, coe_of_fin (hS i j)]

end Stats

open Stats

/-- The running rescaled sum after the fourth block is the reference's sum of exponentials. -/
theorem lrun_eq_smR (S : Mat 4096 4096) (hS : ∀ i j, Fin' (S i j)) (j : Fin 4096) : lrun S j 3 = smR S j := by
  rw [lrun_coe S hS j 3, smR_coe S hS j, mrun_eq_mxR]
  congr 1
  exact sum_rowAt (fun i => Real.exp ((S i j).toReal - (mxR S j).toReal))

/-- The sum of exponentials of a column of reals is a positive real. -/
theorem smR_pos (S : Mat 4096 4096) (hS : ∀ i j, Fin' (S i j)) (j : Fin 4096) : ∃ l : ℝ, 0 < l ∧ smR S j = (l : EReal) := by
  refine ⟨_, ?_, smR_coe S hS j⟩
  exact Finset.sum_pos (fun i _ => Real.exp_pos _) ⟨⟨0, by norm_num⟩, Finset.mem_univ _⟩

end Cert.ColSoftmax

end
-- ==== Proof.MathOut.lean ====
/-
  The kernel's arrangement of column-softmax attention equals the reference's, on real inputs.

  Scores: `Σ_d (Q i d · 2⁻¹²) · K j d = (Σ_d Q i d · K j d) / 4096` for real `Q, K` (a factor moved across a finite
  sum of reals). Normalisation: with `M` the column's maximum and `L > 0` its sum of exponentials, both real,
  `exp (s − (M + log L)) = exp (s − M) / L`. Product: the four blocks' partial sums over 1024 columns each, added from
  zero in order, are the one sum over all 4096 columns.
-/
import proofs.«402450_j31344671326318_3_alg».proof.Proof.Spec
import proofs.«402450_j31344671326318_3_alg».proof.Proof.MathStats

noncomputable section

open Idealize.ShloMosaic

namespace Cert.ColSoftmax

/-! ## Extended reals that are real numbers -/

/-- A real number, read as an extended real, is neither infinity. -/
theorem fin_coe (r : ℝ) : Fin' (r : EReal) := ⟨EReal.coe_ne_bot r, EReal.coe_ne_top r⟩

/-- An extended real that is neither infinity is a real number. -/
theorem fin_exists {x : EReal} (h : Fin' x) : ∃ r : ℝ, x = (r : EReal) :=
  ⟨x.toReal, (EReal.coe_toReal h.2 h.1).symm⟩

/-- The inclusion of the reals commutes with finite sums. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A finite sum of products of reals, taken in the extended reals, is the real sum. -/
theorem sum_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-! ## The two constants -/

/-- The reference's divisor is the real number 4096. -/
theorem c4096_eq : c4096 = ((4096 : ℝ) : EReal) := by
  simp [c4096, Ideal.ofBits, Ideal.ieee, -EReal.coe_mul]; norm_num

/-- The kernel's factor is the real number 1/4096. -/
theorem cinv_eq : cinv = ((1 / 4096 : ℝ) : EReal) := by
  simp [cinv, Ideal.ofBits, Ideal.ieee, -EReal.coe_mul]; norm_num

/-! ## The projections and the scores on real arrays -/

/-- A linear layer of real arrays is real. -/
theorem lin_fin (x : Mat 4096 1024) (W : Mat 1024 1024) (b : Fin 1024 → EReal)
    (hx : ∀ i k, Fin' (x i k)) (hW : ∀ d k, Fin' (W d k)) (hb : ∀ d, Fin' (b d)) : ∀ i d, Fin' (lin x W b i d) := by
  choose xr hxr using fun i k => fin_exists (hx i k)
  choose Wr hWr using fun d k => fin_exists (hW d k)
  choose br hbr using fun d => fin_exists (hb d)
  intro i d
  have h : lin x W b i d = (((∑ k : Fin 1024, xr i k * Wr d k) + br d : ℝ) : EReal) := by
    unfold lin
    rw [EReal.coe_add, ← sum_mul_coe, hbr d]
    exact congrArg (· + (br d : EReal)) (Finset.sum_congr rfl fun k _ => by rw [hxr i k, hWr d k])
  rw [h]
  exact fin_coe _

/-- The reference's score of real rows: the real inner product times 1/4096. -/
theorem scoreR_coe (Q K : Mat 4096 1024) (Qr Kr : Fin 4096 → Fin 1024 → ℝ)
    (hQr : ∀ i d, Q i d = (Qr i d : EReal)) (hKr : ∀ i d, K i d = (Kr i d : EReal)) (i j : Fin 4096) :
    scoreR Q K i j = (((∑ d : Fin 1024, Qr i d * Kr j d) * (1 / 4096) : ℝ) : EReal) := by
  unfold scoreR dotT
  rw [c4096_eq, Ideal.div_coe (by norm_num), EReal.coe_mul, ← sum_mul_coe]
  exact congrArg (· * ((1 / 4096 : ℝ) : EReal)) (Finset.sum_congr rfl fun d _ => by rw [hQr i d, hKr j d])

/-- The kernel's score of real rows: the real inner product with 1/4096 inside each term. -/
theorem scoreK_coe (Q K : Mat 4096 1024) (Qr Kr : Fin 4096 → Fin 1024 → ℝ)
    (hQr : ∀ i d, Q i d = (Qr i d : EReal)) (hKr : ∀ i d, K i d = (Kr i d : EReal)) (i j : Fin 4096) :
    dotT (scaled Q) K i j = ((∑ d : Fin 1024, (Qr i d * (1 / 4096)) * Kr j d : ℝ) : EReal) := by
  unfold dotT scaled
  rw [← sum_mul_coe]
  exact Finset.sum_congr rfl fun d _ => by rw [hQr i d, hKr j d, cinv_eq, EReal.coe_mul]

/-- The reference's scores of real projections are real. -/
theorem scoreR_fin (Q K : Mat 4096 1024) (hQ : ∀ i d, Fin' (Q i d)) (hK : ∀ i d, Fin' (K i d)) :
    ∀ i j, Fin' (scoreR Q K i j) := by
  choose Qr hQr using fun i d => fin_exists (hQ i d)
  choose Kr hKr using fun i d => fin_exists (hK i d)
  intro i j
  rw [scoreR_coe Q K Qr Kr hQr hKr i j]
  exact fin_coe _

/-- The kernel's scores (the scale folded into `Q`) are the reference's (the product divided by 4096). -/
theorem scoreK_eq_scoreR (Q K : Mat 4096 1024) (hQ : ∀ i d, Fin' (Q i d)) (hK : ∀ i d, Fin' (K i d)) :
    dotT (scaled Q) K = scoreR Q K := by
  choose Qr hQr using fun i d => fin_exists (hQ i d)
  choose Kr hKr using fun i d => fin_exists (hK i d)
  funext i j
  rw [scoreK_coe Q K Qr Kr hQr hKr i j, scoreR_coe Q K Qr Kr hQr hKr i j, Finset.sum_mul]
  exact congrArg _ (Finset.sum_congr rfl fun d _ => by ring)

/-! ## The normalisation -/

/-- On real scores the kernel's shift of column j is M + log L, with M the column's maximum and L > 0 its
    sum of exponentials, both real. -/
theorem shiftK_coe (S : Mat 4096 4096) (hS : ∀ i j, Fin' (S i j)) (j : Fin 4096) :
    ∃ M L : ℝ, 0 < L ∧ mxR S j = (M : EReal) ∧ smR S j = (L : EReal) ∧ shiftK S j = ((M + Real.log L : ℝ) : EReal) := by
  obtain ⟨L, hL, hsm⟩ := smR_pos S hS j
  obtain ⟨M, hM⟩ := fin_exists (mxR_fin S hS j)
  refine ⟨M, L, hL, hM, hsm, ?_⟩
  unfold shiftK
  rw [mrun_eq_mxR, lrun_eq_smR S hS, hM, hsm, Ideal.log_coe, if_neg (not_le.mpr hL), EReal.coe_add]

/-- One subtraction of M + log L inside the exponential is the quotient by L of the exponential shifted by M:
    exp (a − M − log L) = exp (a − M) / L. -/
theorem exp_shift_eq (S : Mat 4096 4096) (hS : ∀ i j, Fin' (S i j)) (i j : Fin 4096) :
    Ideal.exp (S i j - shiftK S j) = Ideal.div (eR S i j) (smR S j) := by
  obtain ⟨M, L, hL, hM, hsm, hsh⟩ := shiftK_coe S hS j
  obtain ⟨a, ha⟩ := fin_exists (hS i j)
  unfold eR
  rw [hsh, hsm, hM, ha, Ideal.div_coe hL.ne', ← EReal.coe_sub, ← EReal.coe_sub, Ideal.exp_coe, Ideal.exp_coe,
    ← EReal.coe_mul]
  refine congrArg _ ?_
  rw [show a - (M + Real.log L) = (a - M) - Real.log L by ring, Real.exp_sub, Real.exp_log hL]
  ring

/-! ## Four blocks of 1024 columns are all 4096 columns -/

/-- The sums over the four blocks of 1024, added in order, are the sum over all 4096 indices: the index map
    (s, jj) ↦ 1024 s + jj is a bijection. No finiteness of the terms is used. -/
theorem sum_blocks {A : Type*} [AddCommMonoid A] (g : Fin 4096 → A) :
    ∑ s ∈ Finset.range 4, ∑ jj : Fin 1024, g (rowAt s jj) = ∑ j : Fin 4096, g j := by
  rw [← Fin.sum_univ_eq_sum_range (fun s => ∑ jj : Fin 1024, g (rowAt s jj)) 4,
    ← Fintype.sum_prod_type' (fun (s : Fin 4) (jj : Fin 1024) => g (rowAt s.val jj))]
  refine Fintype.sum_equiv (finProdFinEquiv (m := 4) (n := 1024)) _ _ fun p => congrArg g (Fin.ext ?_)
  have h1 := p.1.isLt
  have h2 := p.2.isLt
  simp only [rowAt, finProdFinEquiv_apply_val]
  omega

/-- On real scores the kernel's normalised, blockwise product is the reference's. -/
theorem outK_eq_outR (S : Mat 4096 4096) (hS : ∀ i j, Fin' (S i j)) (Vv : Mat 4096 1024) : outK S Vv = outR S Vv := by
  funext i d
  have h := sum_blocks (fun j => Ideal.exp (S i j - shiftK S j) * Vv j d)
  unfold outK outR pterm
  rw [zero_eq, zero_add, h]
  exact Finset.sum_congr rfl fun j _ => by rw [exp_shift_eq S hS i j]

/-- The two programs compute one function of real inputs. -/
theorem kernelOut_eq_refOut (q k v : Mat 4096 1024) (Wq Wk Wv : Mat 1024 1024) (bq bk bv : Fin 1024 → EReal)
    (hq : ∀ i a, Fin' (q i a)) (hk : ∀ i a, Fin' (k i a)) (hv : ∀ i a, Fin' (v i a))
    (hWq : ∀ d k, Fin' (Wq d k)) (hWk : ∀ d k, Fin' (Wk d k)) (hWv : ∀ d k, Fin' (Wv d k))
    (hbq : ∀ d, Fin' (bq d)) (hbk : ∀ d, Fin' (bk d)) (hbv : ∀ d, Fin' (bv d)) :
    kernelOut q k v Wq Wk Wv bq bk bv = refOut q k v Wq Wk Wv bq bk bv := by
  have hQ := lin_fin q Wq bq hq hWq hbq
  have hK := lin_fin k Wk bk hk hWk hbk
  unfold kernelOut refOut
  rw [scoreK_eq_scoreR _ _ hQ hK]
  exact outK_eq_outR _ (scoreR_fin _ _ hQ hK) _

end Cert.ColSoftmax

end
-- ==== Proof.Finite.lean ====
/-
  The precondition, decoded: every entry of the nine argument arrays is a real number.

  `finite_inputs` is the conjunction, over the nine arrays, of "every entry's absolute value is below `+∞`"; an
  extended real `x` with `max x (−x) < ⊤` is neither `⊤` nor `⊥`.
-/
import proofs.«402450_j31344671326318_3_alg».proof.Pre_finite_inputs
import proofs.«402450_j31344671326318_3_alg».proof.Proof.Gen.Pre_finite_inputs
import proofs.«402450_j31344671326318_3_alg».proof.Proof.Spec
import Idealize.ShloMosaic.Lib.ReduceAll
import Idealize.ShloMosaic.PureOps.Ideal.Laws

noncomputable section

open Idealize.ShloMosaic
open Cert.ColSoftmax

namespace Cert.Pre_finite_inputs.Dec

open Cert.Pre_finite_inputs

variable [Cert.Pre_finite_inputs.Facts]

/-- The scalar shape has one index. -/
instance : Subsingleton S_.Idx := ⟨fun a b => funext fun d => d.elim0⟩

/-- The word `0x7F800000` is `+∞`. -/
theorem inf_eq_top : Ideal.ofBits .f32 0x7F800000#32 = (⊤ : EReal) := by
  simp [Ideal.ofBits, Ideal.ieee]

/-- An extended real whose absolute value `max x (−x)` compares below `+∞` is a real number: at `⊤` the maximum is `⊤`,
    and at `⊥` it is `−⊥ = ⊤`. -/
theorem fin_of_abs_lt (x : EReal)
    (h : Ideal.cmp .olt (max x (-x)) (Ideal.ofBits .f32 0x7F800000#32) = 1#1) : Fin' x := by
  rw [inf_eq_top] at h
  have hlt : max x (-x) < ⊤ := by
    by_contra hc
    simp [Ideal.cmp, hc] at h
  constructor
  · rintro rfl
    simp at hlt
  · rintro rfl
    simp at hlt

/-- One array's clause: if the `and` over all axes of "`|x| < +∞`" is one, every entry of `x` is a real number. -/
theorem fin_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant S_ .f32 0x7F800000#32)))
      (constantI S_ 1 1#1) hr hu ValueIdx.ix0 = 1#1) (i : s.Idx) : Fin' (x i) :=
  fin_of_abs_lt (x i) (Host.reduce_andi_all _ _ hr hu ValueIdx.ix0 h i)

/-- If the precondition's predicate is all ones on nine arrays, every entry of each of them is a real number. -/
theorem fin_of_pre (x0 x1 x2 : FVec Ideal S4096x1024 .f32) (x3 : FVec Ideal S1024x1024 .f32) (x4 : FVec Ideal S1024 .f32)
    (x5 : FVec Ideal S1024x1024 .f32) (x6 : FVec Ideal S1024 .f32) (x7 : FVec Ideal S1024x1024 .f32) (x8 : FVec Ideal S1024 .f32)
    (h : Cert.Pre_finite_inputs.fn (F := Ideal) x0 x1 x2 x3 x4 x5 x6 x7 x8 = fun _ => 1#1) :
    (∀ i a, Fin' (mat (a := 4096) (b := 1024) x0 i a)) ∧ (∀ i a, Fin' (mat (a := 4096) (b := 1024) x1 i a))
    ∧ (∀ i a, Fin' (mat (a := 4096) (b := 1024) x2 i a)) ∧ (∀ d a, Fin' (mat (a := 1024) (b := 1024) x3 d a))
    ∧ (∀ d, Fin' (vec (a := 1024) x4 d)) ∧ (∀ d a, Fin' (mat (a := 1024) (b := 1024) x5 d a))
    ∧ (∀ d, Fin' (vec (a := 1024) x6 d)) ∧ (∀ d a, Fin' (mat (a := 1024) (b := 1024) x7 d a))
    ∧ (∀ d, Fin' (vec (a := 1024) x8 d)) := by
  have hp := congrFun h ValueIdx.ix0
  dsimp only [fn, fn_part1, fn_part2] at hp
  simp only [andi, IntOp.andi_eq_one] at hp
  obtain ⟨⟨⟨⟨⟨⟨⟨⟨h0, h1⟩, h2⟩, h3⟩, h4⟩, h5⟩, h6⟩, h7⟩, h8⟩ := hp
  exact ⟨fun i a => fin_of_all _ _ _ x0 h0 (ValueIdx.ix2 i a), fun i a => fin_of_all _ _ _ x1 h1 (ValueIdx.ix2 i a),
    fun i a => fin_of_all _ _ _ x2 h2 (ValueIdx.ix2 i a), fun d a => fin_of_all _ _ _ x3 h3 (ValueIdx.ix2 d a),
    fun d => fin_of_all _ _ _ x4 h4 (ValueIdx.ix1 d), fun d a => fin_of_all _ _ _ x5 h5 (ValueIdx.ix2 d a),
    fun d => fin_of_all _ _ _ x6 h6 (ValueIdx.ix1 d), fun d a => fin_of_all _ _ _ x7 h7 (ValueIdx.ix2 d a),
    fun d => fin_of_all _ _ _ x8 h8 (ValueIdx.ix1 d)⟩

end Cert.Pre_finite_inputs.Dec

end
-- ==== Proof.Region0.lean ====
/-
  Region 0 of the kernel: the three projections. The region walks the 4096 rows in eight blocks of 512. At each point it
  multiplies a block of rows of an input by a whole (already transposed) 1024 × 1024 weight matrix, adds the bias row to
  every row of the product, and — for the first output only — scales by 2⁻¹². Each point writes its three result blocks
  back, and the eight blocks tile each output array, so each output array ends as ONE function of the input arrays:
  at (i, d), Σₖ x i k · Wt k d + b 0 d (times 2⁻¹² for the first).

  The steps: the matrix product at an entry is the sum over the shared axis; each payload at an entry is that sum plus the
  bias entry; each window's block lies at rows 512 t … 512 t + 511 of its array (the weights and the bias rows are whole);
  so what point t writes back is block t of the whole-array function; row i is covered by point i / 512.
-/
import proofs.«402450_j31344671326318_3_alg».proof.Proof.Gen.KernelIdeal.Frame
import proofs.«402450_j31344671326318_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Cert.ColSoftmax

namespace Cert.KernelIdeal.Val

open Cert.KernelIdeal Cert.KernelIdeal.Gen

namespace Projections

open Idealize.ShloMosaic.ValueIdx

/-! ## The matrix product of a block of rows with a whole weight matrix, at an entry -/

/-- A whole-buffer access starts at offset zero on both axes. -/
theorem zero_off : (![0, 0] : Fin 2 → Nat) = fun _ => 0 := funext fun a => by fin_cases a <;> rfl

/-- The product's left operand is read on its row axis at the result's row; -/
theorem mm_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- on its column axis at the summation index; -/
theorem mm_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand on its row axis at the summation index; -/
theorem mm_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- and on its column axis at the result's column. -/
theorem mm_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block of 512 rows times the whole 1024 × 1024 matrix, accumulated from zero: entry `(r, d)` is `Σₖ x r k · w k d`. -/
theorem matmul_at (x : FVec Ideal S512x1024 .bf16) (w : FVec Ideal S1024x1024 .bf16) (r : Fin 512) (d : Fin 1024) :
    matmul dot_S512x1024_S1024x1024_S512x1024_1_0_0_1_n_n none x w (constant S512x1024 .f32 0x00000000#32) (ix2 r d)
      = ∑ k : Fin 1024, x (ix2 r k) * w (ix2 k d) := by
  show FloatOps.matmul dot_S512x1024_S1024x1024_S512x1024_1_0_0_1_n_n none x w (constant S512x1024 .f32 0x00000000#32) (ix2 r d) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r d) ((ValueIdx.contrEquiv1 dot_S512x1024_S1024x1024_S512x1024_1_0_0_1_n_n 1024 rfl rfl).symm k) = ix2 r k := funext fun a => Fin.ext (by
    match a with
    | ⟨0, _⟩ => exact mm_lhs_0 _ _
    | ⟨1, _⟩ => exact (mm_lhs_1 _ _).trans hk)
  have er : dot_S512x1024_S1024x1024_S512x1024_1_0_0_1_n_n.rhsIdx (ix2 r d) ((ValueIdx.contrEquiv1 dot_S512x1024_S1024x1024_S512x1024_1_0_0_1_n_n 1024 rfl rfl).symm k) = ix2 k d := funext fun a => Fin.ext (by
    match a with
    | ⟨0, _⟩ => exact (mm_rhs_0 _ _).trans hk
    | ⟨1, _⟩ => exact mm_rhs_1 _ _)
  rw [el, er]

/-! ## The three payloads at an entry

Over the extended reals the narrowing to the 16-bit format is the identity, the shape casts are between equal shapes, and the
bias row is broadcast over the 512 rows: each payload at `(r, d)` is the product's entry plus the bias entry at `d`. -/

/-- The first output's payload: the product plus the bias row, times `2⁻¹²`. -/
theorem pay_q_at (x : Vec Ideal S512x1024 .f32) (w : Vec Ideal S1024x1024 .bf16) (b : Vec Ideal S1x1024 .f32) (r : Fin 512) (d : Fin 1024) :
    k0_pay2 (F := Ideal) x w b (ix2 r d) = ((∑ k : Fin 1024, x (ix2 r k) * w (ix2 k d)) + b (ix2 (0 : Fin 1) d)) * cinv := by
  unfold k0_pay2
  simp only [shapeCast_self]
  show (matmul (F := Ideal) dot_S512x1024_S1024x1024_S512x1024_1_0_0_1_n_n none (truncf (F := Ideal) .bf16 x bitsLt_bf16_f32) w (constant (F := Ideal) S512x1024 .f32 0x00000000#32) (ix2 r d)
      + broadcastTo S512x1024 b broadcasts_S1x1024_S512x1024 (ix2 r d)) * cinv = _
  rw [matmul_at, broadcastTo_1b_ab_apply]
  rfl

/-- The second output's payload: the product plus the bias row. -/
theorem pay_k_at (x : Vec Ideal S512x1024 .f32) (w : Vec Ideal S1024x1024 .bf16) (b : Vec Ideal S1x1024 .f32) (r : Fin 512) (d : Fin 1024) :
    k0_pay3 (F := Ideal) x w b (ix2 r d) = (∑ k : Fin 1024, x (ix2 r k) * w (ix2 k d)) + b (ix2 (0 : Fin 1) d) := by
  unfold k0_pay3
  simp only [shapeCast_self]
  show matmul (F := Ideal) dot_S512x1024_S1024x1024_S512x1024_1_0_0_1_n_n none (truncf (F := Ideal) .bf16 x bitsLt_bf16_f32) w (constant (F := Ideal) S512x1024 .f32 0x00000000#32) (ix2 r d)
      + broadcastTo S512x1024 b broadcasts_S1x1024_S512x1024 (ix2 r d) = _
  rw [matmul_at, broadcastTo_1b_ab_apply]
  rfl

/-- The third output's payload, which the body carries as three terms — the product, the bias row, their sum —: the same. -/
theorem pay_v_at (x : Vec Ideal S512x1024 .f32) (w : Vec Ideal S1024x1024 .bf16) (b : Vec Ideal S1x1024 .f32) (r : Fin 512) (d : Fin 1024) :
    k0_pay1 (F := Ideal) (k0_pay4 (F := Ideal) x w) (k0_pay5 (F := Ideal) b) (ix2 r d) = (∑ k : Fin 1024, x (ix2 r k) * w (ix2 k d)) + b (ix2 (0 : Fin 1) d) := by
  unfold k0_pay1 k0_pay4 k0_pay5
  simp only [shapeCast_self]
  show matmul (F := Ideal) dot_S512x1024_S1024x1024_S512x1024_1_0_0_1_n_n none (truncf (F := Ideal) .bf16 x bitsLt_bf16_f32) w (constant (F := Ideal) S512x1024 .f32 0x00000000#32) (ix2 r d)
      + broadcastTo S512x1024 b broadcasts_S1x1024_S512x1024 (ix2 r d) = _
  rw [matmul_at, broadcastTo_1b_ab_apply]
  rfl

/-! ## Where the windows' blocks lie in their arrays -/

/-- The block indices of the region's windows at every point: the row-blocked windows (the three inputs and the three
    outputs) are at block `t` of rows and block `0` of columns; the weights and the bias rows are whole. -/
theorem idx_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Row `r` of the block of 512 rows that point `t` works on, as a row of the 4096-row arrays. -/
def rowOf (t : Fin cfg0.N) (r : Fin 512) : Fin 4096 :=
  ⟨512 * t.val + r.val, by have h1 := t.isLt; have h2 : cfg0.N = 8 := N_0; have h3 := r.isLt; omega⟩

-- the TensorCore's buffer contents when the region is entered, at the extended reals
variable (V : (c : Dev nD) → (b : Ref sig .tc) → Buf (Elt Ideal) ((c : Thread nD τ).loc b))

/-! ## The first output -/

/-- The first input's block at point `t` holds rows `512 t … 512 t + 511` of its array; -/
theorem blk_x0 (c : Dev nD) (t : Fin cfg0.N) (r : Fin 512) (k : Fin 1024) :
    (iblk0 V c 0 t : Vec Ideal S512x1024 .f32) (ix2 r k) = mat (a := 4096) (b := 1024) (V c main_arg0) (rowOf t r) k := by
  obtain ⟨⟨e0, e1⟩, -⟩ := idx_at t
  unfold iblk0
  rw [View.read_apply]
  show V c main_arg0 (((cfg0.win 0).blk t).view.emb (ix2 r k)) = V c main_arg0 (ix2 (rowOf t r) k)
  refine congrArg (V c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

/-- the first weight window's block is the whole weight array; -/
theorem blk_w0 (c : Dev nD) (t : Fin cfg0.N) (k : Fin 1024) (d : Fin 1024) :
    (iblk0 V c 3 t : Vec Ideal S1024x1024 .bf16) (ix2 k d) = mat (a := 1024) (b := 1024) (V c main_v1) k d := by
  obtain ⟨-, -, -, ⟨e0, e1⟩, -⟩ := idx_at t
  unfold iblk0
  rw [View.read_apply]
  show V c main_v1 (((cfg0.win 3).blk t).view.emb (ix2 k d)) = V c main_v1 (ix2 k d)
  refine congrArg (V c main_v1) (funext fun a => Fin.ext ?_)
  match a with
  | ⟨0, _⟩ => show win0_3.index t (0 : Fin 2) * 1024 + 1 * k.val = k.val; rw [e0]; omega
  | ⟨1, _⟩ => show win0_3.index t (1 : Fin 2) * 1024 + 1 * d.val = d.val; rw [e1]; omega

/-- the first bias window's block is the whole bias row. -/
theorem blk_b0 (c : Dev nD) (t : Fin cfg0.N) (u : Fin 1) (d : Fin 1024) :
    (iblk0 V c 6 t : Vec Ideal S1x1024 .f32) (ix2 u d) = mat (a := 1) (b := 1024) (V c main_v6) u d := by
  obtain ⟨-, -, -, -, -, -, ⟨e0, e1⟩, -⟩ := idx_at t
  unfold iblk0
  rw [View.read_apply]
  show V c main_v6 (((cfg0.win 6).blk t).view.emb (ix2 u d)) = V c main_v6 (ix2 u d)
  refine congrArg (V c main_v6) (funext fun a => Fin.ext ?_)
  match a with
  | ⟨0, _⟩ => show win0_6.index t (0 : Fin 2) * 1 + 1 * u.val = u.val; rw [e0]; omega
  | ⟨1, _⟩ => show win0_6.index t (1 : Fin 2) * 1024 + 1 * d.val = d.val; rw [e1]; omega

/-- An entry of the first output's block at point `t` sits in its array at row `512 t + r`. -/
theorem emb_q (t : Fin cfg0.N) (r : Fin 512) (d : Fin 1024) :
    ((cfg0.win 9).blk t).view.emb (ix2 r d) = (ix2 (rowOf t r) d : S4096x1024.Idx) := by
  obtain ⟨-, -, -, -, -, -, -, -, -, ⟨e0, e1⟩, -⟩ := idx_at t
  refine funext fun a => Fin.ext ?_
  match a with
  | ⟨0, _⟩ => show win0_9.index t (0 : Fin 2) * 512 + 1 * r.val = 512 * t.val + r.val; rw [e0]; omega
  | ⟨1, _⟩ => show win0_9.index t (1 : Fin 2) * 1024 + 1 * d.val = d.val; rw [e1]; omega

/-- What point `t` writes back to the first output array is block `t` of the scaled projection of the whole arrays. -/
theorem flushed_q (c : Dev nD) (t : Fin cfg0.N) :
    (dat0 V c).flushed 9 t = ((cfg0.win 9).blk t).view.read (Elt Ideal) (unmat (a := 4096) (b := 1024) (fun i d => ((∑ k : Fin 1024, mat (a := 4096) (b := 1024) (V c main_arg0) i k * mat (a := 1024) (b := 1024) (V c main_v1) k d)
        + mat (a := 1) (b := 1024) (V c main_v6) 0 d) * cinv)) := by
  show (cfg0.win 9).cut (grid0.coords t) ((dat0 V c).after 9 t) = _
  rw [after0_9]
  unfold out0_9
  rw [View.canon_unit_zero zero_off]
  simp only [View.ld_unit_zero (S := S512x1024) zero_off, View.ld_unit_zero (S := S1024x1024) zero_off, View.ld_unit_zero (S := S1x1024) zero_off]
  show (k0_pay2 (F := Ideal) (iblk0 V c 0 t) (iblk0 V c 3 t) (iblk0 V c 6 t) : S512x1024.Idx → EReal)
      = fun j : S512x1024.Idx => unmat (a := 4096) (b := 1024) (fun i d => ((∑ k : Fin 1024, mat (a := 4096) (b := 1024) (V c main_arg0) i k * mat (a := 1024) (b := 1024) (V c main_v1) k d)
        + mat (a := 1) (b := 1024) (V c main_v6) 0 d) * cinv) (((cfg0.win 9).blk t).view.emb j)
  funext j
  obtain ⟨r, d, rfl⟩ : ∃ (r : Fin 512) (d : Fin 1024), j = ix2 r d := ⟨j 0, j 1, eq_ix2 j⟩
  refine (pay_q_at (iblk0 V c 0 t) (iblk0 V c 3 t) (iblk0 V c 6 t) r d).trans ?_
  rw [emb_q t r d]
  show _ = ((∑ k : Fin 1024, mat (a := 4096) (b := 1024) (V c main_arg0) (rowOf t r) k * mat (a := 1024) (b := 1024) (V c main_v1) k d)
      + mat (a := 1) (b := 1024) (V c main_v6) 0 d) * cinv
  exact congrArg (· * cinv) (congrArg₂ (· + ·) (Finset.sum_congr rfl fun k _ => congrArg₂ (· * ·) (blk_x0 V c t r k) (blk_w0 V c t k d)) (blk_b0 V c t 0 d))

/-- An entry of the first output array is in point `t`'s block iff each coordinate is in the block's range. -/
theorem mem_q (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v9_0).slice (win0_9.rect t)).set ↔ _
  rw [View.set_slice_whole, Rect.mem_set_unit]
  exact Iff.rfl

/-- Row `i` of the first output array is written back by point `i / 512`. -/
theorem cover_q (i : S4096x1024.Idx) : ∃ t : Fin cfg0.N, (cfg0.win 9).flush t = true ∧ i ∈ ((cfg0.win 9).blk t).view.set := by
  have hN : cfg0.N = 8 := N_0
  have hi0 : (i 0).val < 4096 := (i 0).isLt
  have hi1 : (i 1).val < 1024 := (i 1).isLt
  refine ⟨⟨(i 0).val / 512, by omega⟩, flush0_9 _, ?_⟩
  rw [mem_q]
  obtain ⟨-, -, -, -, -, -, -, -, -, ⟨e0, e1⟩, -⟩ := idx_at ⟨(i 0).val / 512, by omega⟩
  intro a
  match a with
  | ⟨0, _⟩ =>
    show win0_9.index ⟨(i 0).val / 512, _⟩ (0 : Fin 2) * 512 ≤ (i 0).val ∧ (i 0).val < win0_9.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_9.index ⟨(i 0).val / 512, _⟩ (1 : Fin 2) * 1024 ≤ (i 1).val ∧ (i 1).val < win0_9.index ⟨(i 0).val / 512, _⟩ (1 : Fin 2) * 1024 + 1024
    rw [e1]; omega

/-! ## The second output -/

/-- The second input's block at point `t` holds rows `512 t … 512 t + 511` of its array; -/
theorem blk_x1 (c : Dev nD) (t : Fin cfg0.N) (r : Fin 512) (k : Fin 1024) :
    (iblk0 V c 1 t : Vec Ideal S512x1024 .f32) (ix2 r k) = mat (a := 4096) (b := 1024) (V c main_arg1) (rowOf t r) k := by
  obtain ⟨-, ⟨e0, e1⟩, -⟩ := idx_at t
  unfold iblk0
  rw [View.read_apply]
  show V c main_arg1 (((cfg0.win 1).blk t).view.emb (ix2 r k)) = V c main_arg1 (ix2 (rowOf t r) k)
  refine congrArg (V c main_arg1) (funext fun a => Fin.ext ?_)
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega

/-- the second weight window's block is the whole weight array; -/
theorem blk_w1 (c : Dev nD) (t : Fin cfg0.N) (k : Fin 1024) (d : Fin 1024) :
    (iblk0 V c 4 t : Vec Ideal S1024x1024 .bf16) (ix2 k d) = mat (a := 1024) (b := 1024) (V c main_v3) k d := by
  obtain ⟨-, -, -, -, ⟨e0, e1⟩, -⟩ := idx_at t
  unfold iblk0
  rw [View.read_apply]
  show V c main_v3 (((cfg0.win 4).blk t).view.emb (ix2 k d)) = V c main_v3 (ix2 k d)
  refine congrArg (V c main_v3) (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * d.val = d.val; rw [e1]; omega

/-- the second bias window's block is the whole bias row. -/
theorem blk_b1 (c : Dev nD) (t : Fin cfg0.N) (u : Fin 1) (d : Fin 1024) :
    (iblk0 V c 7 t : Vec Ideal S1x1024 .f32) (ix2 u d) = mat (a := 1) (b := 1024) (V c main_v7) u d := by
  obtain ⟨-, -, -, -, -, -, -, ⟨e0, e1⟩, -⟩ := idx_at t
  unfold iblk0
  rw [View.read_apply]
  show V c main_v7 (((cfg0.win 7).blk t).view.emb (ix2 u d)) = V c main_v7 (ix2 u d)
  refine congrArg (V c main_v7) (funext fun a => Fin.ext ?_)
  match a with
  | ⟨0, _⟩ => show win0_7.index t (0 : Fin 2) * 1 + 1 * u.val = u.val; rw [e0]; omega
  | ⟨1, _⟩ => show win0_7.index t (1 : Fin 2) * 1024 + 1 * d.val = d.val; rw [e1]; omega

/-- An entry of the second output's block at point `t` sits in its array at row `512 t + r`. -/
theorem emb_k (t : Fin cfg0.N) (r : Fin 512) (d : Fin 1024) :
    ((cfg0.win 10).blk t).view.emb (ix2 r d) = (ix2 (rowOf t r) d : S4096x1024.Idx) := by
  obtain ⟨-, -, -, -, -, -, -, -, -, -, ⟨e0, e1⟩, -⟩ := idx_at t
  refine funext fun a => Fin.ext ?_
  match a with
  | ⟨0, _⟩ => show win0_10.index t (0 : Fin 2) * 512 + 1 * r.val = 512 * t.val + r.val; rw [e0]; omega
  | ⟨1, _⟩ => show win0_10.index t (1 : Fin 2) * 1024 + 1 * d.val = d.val; rw [e1]; omega

/-- What point `t` writes back to the second output array is block `t` of the projection of the whole arrays. -/
theorem flushed_k (c : Dev nD) (t : Fin cfg0.N) :
    (dat0 V c).flushed 10 t = ((cfg0.win 10).blk t).view.read (Elt Ideal) (unmat (a := 4096) (b := 1024) (fun i d => (∑ k : Fin 1024, mat (a := 4096) (b := 1024) (V c main_arg1) i k * mat (a := 1024) (b := 1024) (V c main_v3) k d)
        + mat (a := 1) (b := 1024) (V c main_v7) 0 d)) := by
  show (cfg0.win 10).cut (grid0.coords t) ((dat0 V c).after 10 t) = _
  rw [after0_10]
  unfold out0_10
  rw [View.canon_unit_zero zero_off]
  simp only [View.ld_unit_zero (S := S512x1024) zero_off, View.ld_unit_zero (S := S1024x1024) zero_off, View.ld_unit_zero (S := S1x1024) zero_off]
  show (k0_pay3 (F := Ideal) (iblk0 V c 1 t) (iblk0 V c 4 t) (iblk0 V c 7 t) : S512x1024.Idx → EReal)
      = fun j : S512x1024.Idx => unmat (a := 4096) (b := 1024) (fun i d => (∑ k : Fin 1024, mat (a := 4096) (b := 1024) (V c main_arg1) i k * mat (a := 1024) (b := 1024) (V c main_v3) k d)
        + mat (a := 1) (b := 1024) (V c main_v7) 0 d) (((cfg0.win 10).blk t).view.emb j)
  funext j
  obtain ⟨r, d, rfl⟩ : ∃ (r : Fin 512) (d : Fin 1024), j = ix2 r d := ⟨j 0, j 1, eq_ix2 j⟩
  refine (pay_k_at (iblk0 V c 1 t) (iblk0 V c 4 t) (iblk0 V c 7 t) r d).trans ?_
  rw [emb_k t r d]
  show _ = (∑ k : Fin 1024, mat (a := 4096) (b := 1024) (V c main_arg1) (rowOf t r) k * mat (a := 1024) (b := 1024) (V c main_v3) k d)
      + mat (a := 1) (b := 1024) (V c main_v7) 0 d
  exact congrArg₂ (· + ·) (Finset.sum_congr rfl fun k _ => congrArg₂ (· * ·) (blk_x1 V c t r k) (blk_w1 V c t k d)) (blk_b1 V c t 0 d)

/-- An entry of the second output array is in point `t`'s block iff each coordinate is in the block's range. -/
theorem mem_k (t : Fin cfg0.N) (i : S4096x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v9_1).slice (win0_10.rect t)).set ↔ _
  rw [View.set_slice_whole, Rect.mem_set_unit]
  exact Iff.rfl

/-- Row `i` of the second output array is written back by point `i / 512`. -/
theorem cover_k (i : S4096x1024.Idx) : ∃ t : Fin cfg0.N, (cfg0.win 10).flush t = true ∧ i ∈ ((cfg0.win 10).blk t).view.set := by
  have hN : cfg0.N = 8 := N_0
  have hi0 : (i 0).val < 4096 := (i 0).isLt
  have hi1 : (i 1).val < 1024 := (i 1).isLt
  refine ⟨⟨(i 0).val / 512, by omega⟩, flush0_10 _, ?_⟩
  rw [mem_k]
  obtain ⟨-, -, -, -, -, -, -, -, -, -, ⟨e0, e1⟩, -⟩ := idx_at ⟨(i 0).val / 512, by omega⟩
  intro a
  match a with
  | ⟨0, _⟩ =>
    show win0_10.index ⟨(i 0).val / 512, _⟩ (0 : Fin 2) * 512 ≤ (i 0).val ∧ (i 0).val < win0_10.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_10.index ⟨(i 0).val / 512, _⟩ (1 : Fin 2) * 1024 ≤ (i 1).val ∧ (i 1).val < win0_10.index ⟨(i 0).val / 512, _⟩ (1 : Fin 2) * 1024 + 1024
    rw [e1]; omega

/-! ## The third output -/

/-- The third input's block at point `t` holds rows `512 t … 512 t + 511` of its array; -/
theorem blk_x2 (c : Dev nD) (t : Fin cfg0.N) (r : Fin 512) (k : Fin 1024) :
    (iblk0 V c 2 t : Vec Ideal S512x1024 .f32) (ix2 r k) = mat (a := 4096) (b := 1024) (V c main_arg2) (rowOf t r) k := by
  obtain ⟨-, -, ⟨e0, e1⟩, -⟩ := idx_at t
  unfold iblk0
  rw [View.read_apply]
  show V c main_arg2 (((cfg0.win 2).blk t).view.emb (ix2 r k)) = V c main_arg2 (ix2 (rowOf t r) k)
  refine congrArg (V c main_arg2) (funext fun a => Fin.ext ?_)
  match a with
  | ⟨0, _⟩ => show win0_2.index t (0 : Fin 2) * 512 + 1 * r.val = 512 * t.val + r.val; rw [e0]; omega
  | ⟨1, _⟩ => show win0_2.index t (1 : Fin 2) * 1024 + 1 * k.val = k.val; rw [e1]; omega

/-- the third weight window's block is the whole weight array; -/
theorem blk_w2 (c : Dev nD) (t : Fin cfg0.N) (k : Fin 1024) (d : Fin 1024) :
    (iblk0 V c 5 t : Vec Ideal S1024x1024 .bf16) (ix2 k d) = mat (a := 1024) (b := 1024) (V c main_v5) k d := by
  obtain ⟨-, -, -, -, -, ⟨e0, e1⟩, -⟩ := idx_at t
  unfold iblk0
  rw [View.read_apply]
  show V c main_v5 (((cfg0.win 5).blk t).view.emb (ix2 k d)) = V c main_v5 (ix2 k d)
  refine congrArg (V c main_v5) (funext fun a => Fin.ext ?_)
  match a with
  | ⟨0, _⟩ => show win0_5.index t (0 : Fin 2) * 1024 + 1 * k.val = k.val; rw [e0]; omega
  | ⟨1, _⟩ => show win0_5.index t (1 : Fin 2) * 1024 + 1 * d.val = d.val; rw [e1]; omega

/-- the third bias window's block is the whole bias row. -/
theorem blk_b2 (c : Dev nD) (t : Fin cfg0.N) (u : Fin 1) (d : Fin 1024) :
    (iblk0 V c 8 t : Vec Ideal S1x1024 .f32) (ix2 u d) = mat (a := 1) (b := 1024) (V c main_v8) u d := by
  obtain ⟨-, -, -, -, -, -, -, -, ⟨e0, e1⟩, -⟩ := idx_at t
  unfold iblk0
  rw [View.read_apply]
  show V c main_v8 (((cfg0.win 8).blk t).view.emb (ix2 u d)) = V c main_v8 (ix2 u d)
  refine congrArg (V c main_v8) (funext fun a => Fin.ext ?_)
  match a with
  | ⟨0, _⟩ => show win0_8.index t (0 : Fin 2) * 1 + 1 * u.val = u.val; rw [e0]; omega
  | ⟨1, _⟩ => show win0_8.index t (1 : Fin 2) * 1024 + 1 * d.val = d.val; rw [e1]; omega

/-- An entry of the third output's block at point `t` sits in its array at row `512 t + r`. -/
theorem emb_v (t : Fin cfg0.N) (r : Fin 512) (d : Fin 1024) :
    ((cfg0.win 11).blk t).view.emb (ix2 r d) = (ix2 (rowOf t r) d : S4096x1024.Idx) := by
  obtain ⟨-, -, -, -, -, -, -, -, -, -, -, e0, e1⟩ := idx_at t
  refine funext fun a => Fin.ext ?_
  match a with
  | ⟨0, _⟩ => show win0_11.index t (0 : Fin 2) * 512 + 1 * r.val = 512 * t.val + r.val; rw [e0]; omega
  | ⟨1, _⟩ => show win0_11.index t (1 : Fin 2) * 1024 + 1 * d.val = d.val; rw [e1]; omega

/-- What point `t` writes back to the third output array is block `t` of the projection of the whole arrays. -/
theorem flushed_v (c : Dev nD) (t : Fin cfg0.N) :
    (dat0 V c).flushed 11 t = ((cfg0.win 11).blk t).view.read (Elt Ideal) (unmat (a := 4096) (b := 1024) (fun i d => (∑ k : Fin 1024, mat (a := 4096) (b := 1024) (V c main_arg2) i k * mat (a := 1024) (b := 1024) (V c main_v5) k d)
        + mat (a := 1) (b := 1024) (V c main_v8) 0 d)) := by
  show (cfg0.win 11).cut (grid0.coords t) ((dat0 V c).after 11 t) = _
  rw [after0_11]
  unfold out0_11
  rw [View.canon_unit_zero zero_off]
  simp only [View.ld_unit_zero (S := S512x1024) zero_off, View.ld_unit_zero (S := S1024x1024) zero_off, View.ld_unit_zero (S := S1x1024) zero_off]
  show (k0_pay1 (F := Ideal) (k0_pay4 (F := Ideal) (iblk0 V c 2 t) (iblk0 V c 5 t)) (k0_pay5 (F := Ideal) (iblk0 V c 8 t)) : S512x1024.Idx → EReal)
      = fun j : S512x1024.Idx => unmat (a := 4096) (b := 1024) (fun i d => (∑ k : Fin 1024, mat (a := 4096) (b := 1024) (V c main_arg2) i k * mat (a := 1024) (b := 1024) (V c main_v5) k d)
        + mat (a := 1) (b := 1024) (V c main_v8) 0 d) (((cfg0.win 11).blk t).view.emb j)
  funext j
  obtain ⟨r, d, rfl⟩ : ∃ (r : Fin 512) (d : Fin 1024), j = ix2 r d := ⟨j 0, j 1, eq_ix2 j⟩
  refine (pay_v_at (iblk0 V c 2 t) (iblk0 V c 5 t) (iblk0 V c 8 t) r d).trans ?_
  rw [emb_v t r d]
  show _ = (∑ k : Fin 1024, mat (a := 4096) (b := 1024) (V c main_arg2) (rowOf t r) k * mat (a := 1024) (b := 1024) (V c main_v5) k d)
      + mat (a := 1) (b := 1024) (V c main_v8) 0 d
  exact congrArg₂ (· + ·) (Finset.sum_congr rfl fun k _ => congrArg₂ (· * ·) (blk_x2 V c t r k) (blk_w2 V c t k d)) (blk_b2 V c t 0 d)

/-- An entry of the third output array is in point `t`'s block iff each coordinate is in the block's range. -/
theorem mem_v (t : Fin cfg0.N) (i : S4096x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v9_2).slice (win0_11.rect t)).set ↔ _
  rw [View.set_slice_whole, Rect.mem_set_unit]
  exact Iff.rfl

/-- Row `i` of the third output array is written back by point `i / 512`. -/
theorem cover_v (i : S4096x1024.Idx) : ∃ t : Fin cfg0.N, (cfg0.win 11).flush t = true ∧ i ∈ ((cfg0.win 11).blk t).view.set := by
  have hN : cfg0.N = 8 := N_0
  have hi0 : (i 0).val < 4096 := (i 0).isLt
  have hi1 : (i 1).val < 1024 := (i 1).isLt
  refine ⟨⟨(i 0).val / 512, by omega⟩, flush0_11 _, ?_⟩
  rw [mem_v]
  obtain ⟨-, -, -, -, -, -, -, -, -, -, -, e0, e1⟩ := idx_at ⟨(i 0).val / 512, by omega⟩
  intro a
  match a with
  | ⟨0, _⟩ =>
    show win0_11.index ⟨(i 0).val / 512, _⟩ (0 : Fin 2) * 512 ≤ (i 0).val ∧ (i 0).val < win0_11.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_11.index ⟨(i 0).val / 512, _⟩ (1 : Fin 2) * 1024 ≤ (i 1).val ∧ (i 1).val < win0_11.index ⟨(i 0).val / 512, _⟩ (1 : Fin 2) * 1024 + 1024
    rw [e1]; omega

end Projections

/-! ## The three output arrays after the region

Every point writes its blocks back and the eight blocks of 512 rows tile the 4096 rows, so each array is the whole-array
function its blocks are cut from. -/

-- the TensorCore's buffer contents when the region is entered, at the extended reals
variable (V : (c : Dev nD) → (b : Ref sig .tc) → Buf (Elt Ideal) ((c : Thread nD τ).loc b))

/-- REGION 0 (the three projections). After the region the first output array holds, at `(i, d)`,
    `(Σₖ x i k · Wt k d + b 0 d) · 2⁻¹²` of the first input array, the first weight array (already transposed) and
    the first bias row; -/
theorem arr_q (c : Dev nD) : (dat0 V c).arrAt 9 cfg0.N
    = unmat (a := 4096) (b := 1024) (fun i d => ((∑ k : Fin 1024, mat (a := 4096) (b := 1024) (V c main_arg0) i k * mat (a := 1024) (b := 1024) (V c main_v1) k d)
        + mat (a := 1) (b := 1024) (V c main_v6) 0 d) * cinv) :=
  (dat0 V c).arrAt_eq_of_cover 9 _ (fun t _ => Projections.flushed_q V c t) Projections.cover_q

/-- the second `Σₖ x i k · Wt k d + b 0 d` of the second input, weight and bias arrays; -/
theorem arr_k (c : Dev nD) : (dat0 V c).arrAt 10 cfg0.N
    = unmat (a := 4096) (b := 1024) (fun i d => (∑ k : Fin 1024, mat (a := 4096) (b := 1024) (V c main_arg1) i k * mat (a := 1024) (b := 1024) (V c main_v3) k d)
        + mat (a := 1) (b := 1024) (V c main_v7) 0 d) :=
  (dat0 V c).arrAt_eq_of_cover 10 _ (fun t _ => Projections.flushed_k V c t) Projections.cover_k

/-- and the third the same of the third. -/
theorem arr_v (c : Dev nD) : (dat0 V c).arrAt 11 cfg0.N
    = unmat (a := 4096) (b := 1024) (fun i d => (∑ k : Fin 1024, mat (a := 4096) (b := 1024) (V c main_arg2) i k * mat (a := 1024) (b := 1024) (V c main_v5) k d)
        + mat (a := 1) (b := 1024) (V c main_v8) 0 d) :=
  (dat0 V c).arrAt_eq_of_cover 11 _ (fun t _ => Projections.flushed_v V c t) Projections.cover_v

end Cert.KernelIdeal.Val

end
-- ==== Proof.Region1.lean ====
import proofs.«402450_j31344671326318_3_alg».proof.Proof.Gen.KernelIdeal.Frame
import proofs.«402450_j31344671326318_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Cert.ColSoftmax

namespace Cert.KernelIdeal.Val

open Cert.KernelIdeal Cert.KernelIdeal.Gen

namespace ScoreBlock

section Pieces
variable {F : FTy → Type} [FloatOps F]

/-- The zero offsets of a whole-block rectangle. -/
theorem hz : (![0, 0] : Fin 2 → Nat) = fun _ => 0 := funext fun a => by fin_cases a <;> rfl

/-- At a point where the statistics are reset, the body's one store into the score block is the product of the
    first input block with the transpose of the second. -/
theorem piece_A (c : Dev nD) (i : grid1.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1x1024 .f32) (h6 : a6.IsWhole)
    (hc : cond1_0 i) (x0 x1 : Vec F S1024x1024 .bf16) :
    out1_A_2 c i a2 h2 a3 h3 a4 h4 a5 h5 a6 h6 hc x0 x1 = k1_pay4 x0 x1 := by
  unfold out1_A_2
  rw [View.read_writes_eq_canon _ _ _ (cover1_A_2 c i a2 h2 a3 h3 a4 h4 a5 h5 a6 h6 hc x0 x1)]
  unfold kernelRun1_A
  dsimp only
  sl_unfold_words
  rw [View.canon_unit_zero hz]
  simp only [View.readAt_eq_ld, h2.read_unread, h3.read_unread, View.ld_unit_zero (S := S1024x1024) hz]

/-- At every other point the store into the score block is the same product, whatever the running statistics are. -/
theorem piece_B (c : Dev nD) (i : grid1.Coords) (a2 : Memref sig .tc .vmem S1024x1024 .bf16) (h2 : a2.IsWhole)
    (a3 : Memref sig .tc .vmem S1024x1024 .bf16) (h3 : a3.IsWhole) (a4 : Memref sig .tc .vmem S1024x1024 .bf16) (h4 : a4.IsWhole)
    (a5 : Memref sig .tc .vmem S1x1024 .f32) (h5 : a5.IsWhole) (a6 : Memref sig .tc .vmem S1x1024 .f32) (h6 : a6.IsWhole)
    (hc : ¬cond1_0 i) (x0 x1 : Vec F S1024x1024 .bf16) (xo3 xo4 : Vec F S1x1024 .f32) :
    out1_B_2 c i a2 h2 a3 h3 a4 h4 a5 h5 a6 h6 hc x0 x1 xo3 xo4 = k1_pay4 x0 x1 := by
  unfold out1_B_2
  rw [View.read_writes_eq_canon _ _ _ (cover1_B_2 c i a2 h2 a3 h3 a4 h4 a5 h5 a6 h6 hc x0 x1 xo3 xo4)]
  unfold kernelRun1_B
  dsimp only
  sl_unfold_words
  rw [View.canon_unit_zero hz]
  simp only [View.readAt_eq_ld, h2.read_unread, h3.read_unread, View.ld_unit_zero (S := S1024x1024) hz]

end Pieces

section Payload

/-! The block product's dimension numbers contract the left operand's axis 1 with the right operand's axis 0;
    the four coordinates of the operands' indices at an output index and a contraction index. -/

theorem lhs_ax0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_ax1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_ax0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_ax1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The stored block at `(p, q)`: row `p` of the first block against row `q` of the second. -/
theorem pay_apply (x0 x1 : Vec Ideal S1024x1024 .bf16) (p q : Fin 1024) :
    k1_pay4 (F := Ideal) x0 x1 (ValueIdx.ix2 p q) = ∑ d : Fin 1024, x0 (ValueIdx.ix2 p d) * x1 (ValueIdx.ix2 q d) := by
  unfold k1_pay4 k1_pay3
  refine (Ideal.matmul_constant_zero_apply dot_S1024x1024_S1024x1024_S1024x1024_1_0_0_1_n_n none
    (shapeCast S1024x1024 x0 shapeCasts_S1024x1024_S1024x1024)
    (transpose S1024x1024 [1, 0] (shapeCast S1024x1024 x1 shapeCasts_S1024x1024_S1024x1024) transposes_S1024x1024_p1_0_S1024x1024)
    (ValueIdx.ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ValueIdx.ix2 p q) ((ValueIdx.contrEquiv1 dot_S1024x1024_S1024x1024_S1024x1024_1_0_0_1_n_n 1024 rfl rfl).symm k) = ValueIdx.ix2 p k := funext fun a => Fin.ext (by
    match a with
    | ⟨0, _⟩ => exact lhs_ax0 _ _
    | ⟨1, _⟩ => exact (lhs_ax1 _ _).trans hk)
  have er : dot_S1024x1024_S1024x1024_S1024x1024_1_0_0_1_n_n.rhsIdx (ValueIdx.ix2 p q) ((ValueIdx.contrEquiv1 dot_S1024x1024_S1024x1024_S1024x1024_1_0_0_1_n_n 1024 rfl rfl).symm k) = ValueIdx.ix2 k q := funext fun a => Fin.ext (by
    match a with
    | ⟨0, _⟩ => exact (rhs_ax0 _ _).trans hk
    | ⟨1, _⟩ => exact rhs_ax1 _ _)
  rw [el, er, shapeCast_self, shapeCast_self, ValueIdx.transpose_ix2_apply]

end Payload

end ScoreBlock

-- the TensorCore's buffer contents when the region is entered, at the extended reals
variable (V : (c : Dev nD) → (b : Ref sig .tc) → Buf (Elt Ideal) ((c : Thread nD τ).loc b))

/-- The scores the region computes from its two input arrays: `A Bᵀ`. -/
abbrev scr (c : Dev nD) : Mat 4096 4096 := dotT (mat (a := 4096) (b := 1024) (V c main_v9_0)) (mat (a := 4096) (b := 1024) (V c main_v9_1))

namespace ScoreBlock

/-- One entry of the stored block against one entry of `A Bᵀ`: when row `y 0` of the first block is row `i` of `A`
    and row `y 1` of the second block is row `j` of `B`, the block's entry at `y` is the score `(i, j)`. -/
theorem point_eq (A B : Vec Ideal S4096x1024 .bf16) (x0 x1 : Vec Ideal S1024x1024 .bf16) (y : S1024x1024.Idx) (i j : Fin 4096)
    (h0 : ∀ d : Fin 1024, x0 (ValueIdx.ix2 (n0 := 1024) (n1 := 1024) (y 0) d) = A (ValueIdx.ix2 i d))
    (h1 : ∀ d : Fin 1024, x1 (ValueIdx.ix2 (n0 := 1024) (n1 := 1024) (y 1) d) = B (ValueIdx.ix2 j d)) :
    k1_pay4 (F := Ideal) x0 x1 y = dotT (mat (a := 4096) (b := 1024) A) (mat (a := 4096) (b := 1024) B) i j := by
  obtain ⟨p, q, rfl⟩ : ∃ (p q : Fin 1024), y = ValueIdx.ix2 p q := ⟨y 0, y 1, ValueIdx.eq_ix2 y⟩
  refine (pay_apply x0 x1 p q).trans ?_
  show _ = ∑ d : Fin 1024, A (ValueIdx.ix2 i d) * B (ValueIdx.ix2 j d)
  exact Finset.sum_congr rfl fun d _ => congrArg₂ (· * ·) (h0 d) (h1 d)

/-- After the body at any point, reset or not, the score block's buffer holds the product of that point's two
    input blocks. -/
theorem after_eq (c : Dev nD) (t : Fin cfg1.N) :
    (dat1 V c).after 2 t = k1_pay4 (F := Ideal) (iblk1 V c 0 t) (iblk1 V c 1 t) := by
  rw [after1_2]
  by_cases h0 : t.val % 4 = 0
  · rw [outsAt1_A V c t h0]
    dsimp only
    exact piece_A (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact piece_B (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- The index maps over the grid, point `t = 4 ki + qi`: the first input's block row is `qi`, the second's is `ki`,
    the score block is `(qi, ki)`. -/
theorem idx_facts : ∀ t : Fin cfg1.N,
    win1_0.index t (0 : Fin 2) = t.val % 4 ∧ win1_0.index t (1 : Fin 2) = 0
    ∧ win1_1.index t (0 : Fin 2) = t.val / 4 ∧ win1_1.index t (1 : Fin 2) = 0
    ∧ win1_2.index t (0 : Fin 2) = t.val % 4 ∧ win1_2.index t (1 : Fin 2) = t.val / 4 :=
  (by decide +kernel : ∀ t : Fin grid1.N, _)

/-- The score array as the contents of the region's first output. -/
abbrev scrArr (c : Dev nD) : Buf (Elt Ideal) ((c : Thread nD τ).loc main_v10_0) := unmat (a := 4096) (b := 4096) (scr V c)

/-- What point `t` writes back is block `(qi, ki)` of `A Bᵀ`. -/
theorem flushed_eq (c : Dev nD) (t : Fin cfg1.N) :
    (dat1 V c).flushed 2 t = ((cfg1.win 2).blk t).view.read (Elt Ideal) (scrArr V c) := by
  show (cfg1.win 2).cut (grid1.coords t) ((dat1 V c).after 2 t) = _
  rw [after_eq]
  obtain ⟨e0, e1, e2, e3, e4, e5⟩ := idx_facts t
  funext y
  show k1_pay4 (F := Ideal) (iblk1 V c 0 t) (iblk1 V c 1 t) y
    = scr V c ((((cfg1.win 2).blk t).view.emb y) 0) ((((cfg1.win 2).blk t).view.emb y) 1)
  refine point_eq (V c main_v9_0) (V c main_v9_1) (iblk1 V c 0 t) (iblk1 V c 1 t) y
    ((((cfg1.win 2).blk t).view.emb y) 0) ((((cfg1.win 2).blk t).view.emb y) 1) (fun d => ?_) (fun d => ?_)
  · show V c main_v9_0 (((cfg1.win 0).blk t).view.emb (ValueIdx.ix2 (n0 := 1024) (n1 := 1024) (y 0) d))
      = V c main_v9_0 (ValueIdx.ix2 ((((cfg1.win 2).blk t).view.emb y) 0) d)
    refine congrArg (V c main_v9_0) (funext fun a => Fin.ext ?_)
    match a with
    | ⟨0, _⟩ => show win1_0.index t (0 : Fin 2) * 1024 + 1 * (y 0).val = win1_2.index t (0 : Fin 2) * 1024 + 1 * (y 0).val; omega
    | ⟨1, _⟩ => show win1_0.index t (1 : Fin 2) * 1024 + 1 * d.val = d.val; omega
  · show V c main_v9_1 (((cfg1.win 1).blk t).view.emb (ValueIdx.ix2 (n0 := 1024) (n1 := 1024) (y 1) d))
      = V c main_v9_1 (ValueIdx.ix2 ((((cfg1.win 2).blk t).view.emb y) 1) d)
    refine congrArg (V c main_v9_1) (funext fun a => Fin.ext ?_)
    match a with
    | ⟨0, _⟩ => show win1_1.index t (0 : Fin 2) * 1024 + 1 * (y 1).val = win1_2.index t (1 : Fin 2) * 1024 + 1 * (y 1).val; omega
    | ⟨1, _⟩ => show win1_1.index t (1 : Fin 2) * 1024 + 1 * d.val = d.val; omega

/-- An index of the score array lies in point `t`'s block iff each coordinate lies in the block's range on its axis. -/
theorem mem_blk (t : Fin cfg1.N) (i : S4096x4096.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v10_0).slice (win1_2.rect t)).set ↔ _
  rw [View.set_slice_whole, Rect.mem_set_unit]
  exact Iff.rfl

/-- Entry `(i, j)` lies in the block of the point `4 (j / 1024) + i / 1024`, and every point writes its block back. -/
theorem cover (i : S4096x4096.Idx) : ∃ t : Fin cfg1.N, (cfg1.win 2).flush t = true ∧ i ∈ ((cfg1.win 2).blk t).view.set := by
  have hi0 : (i 0).val < 4096 := (i 0).isLt
  have hi1 : (i 1).val < 4096 := (i 1).isLt
  have hN : cfg1.N = 16 := N_1
  obtain ⟨t, ht⟩ : ∃ t : Fin cfg1.N, t.val = 4 * ((i 1).val / 1024) + (i 0).val / 1024 :=
    ⟨⟨4 * ((i 1).val / 1024) + (i 0).val / 1024, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

end ScoreBlock

/-- REGION 1, first output (the scores). After the region the first output array holds the scores `A Bᵀ` of the
    region's two input arrays. -/
theorem arr_s (c : Dev nD) : (dat1 V c).arrAt 2 cfg1.N = unmat (a := 4096) (b := 4096) (scr V c) :=
  (dat1 V c).arrAt_eq_of_cover 2 (ScoreBlock.scrArr V c) (fun t _ => ScoreBlock.flushed_eq V c t) ScoreBlock.cover

end Cert.KernelIdeal.Val

end
-- ==== Proof.Region1Stats.lean ====
import proofs.«402450_j31344671326318_3_alg».proof.Proof.Gen.KernelIdeal.Frame
import proofs.«402450_j31344671326318_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Cert.ColSoftmax

namespace Cert.KernelIdeal.Val

open Cert.KernelIdeal Cert.KernelIdeal.Gen

-- the TensorCore's buffer contents when the region is entered, at the extended reals
variable (V : (c : Dev nD) → (b : Ref sig .tc) → Buf (Elt Ideal) ((c : Thread nD τ).loc b))

/-- The scores the region computes from its two input arrays: `A Bᵀ`. -/
abbrev scr' (c : Dev nD) : Mat 4096 4096 := dotT (mat (a := 4096) (b := 1024) (V c main_v9_0)) (mat (a := 4096) (b := 1024) (V c main_v9_1))

/-!
  REGION 1, the two column statistics. The grid is `[4, 4]`: point `t = 4·ki + qi` reads row block `qi` of the first
  input and row block `ki` of the second, forms their score block `A Bᵀ` (rows `1024·qi + ·`, columns `1024·ki + ·` of
  the scores), and updates two `[1, 1024]` buffers that sit at column block `ki` of the two statistics arrays: the running
  column maximum `m ← max m (max over the block's rows)` and the running rescaled sum
  `l ← l · exp (m_old − m_new) + Σ over the block's rows of exp (s − m_new)`. At `qi = 0` the body first resets `m` to `-∞`
  and `l` to `0`; the buffers are written back only at `qi = 3`. So after the region the arrays hold, at `(0, j)`, the
  specification's `mrun … j 3` and `lrun … j 3`: each point's contents as a function of the blocks and of the contents
  before it, those functions read at an index, the invariant by induction on the point, and the four writing-back points
  `4·ki + 3` covering the arrays.
-/

namespace Stats

/-- The whole-block rectangle of a rank-2 buffer sits at zero offsets. -/
theorem hz : (![0, 0] : Fin 2 → Nat) = fun _ => 0 := funext fun a => by fin_cases a <;> rfl

/-- A point that does not reset: the body leaves in the running-maximum buffer, which held `xo3`, the new maximum
    `k1_pay7` of the two input blocks and `xo3` — its one covering store's payload, whose loads read the whole buffers. -/
theorem piece_B_m (c : Dev nD) (i : grid1.Coords)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1x1024 .f32) (h6 : a6.IsWhole) (hc : ¬cond1_0 i)
    (x0 x1 : Vec Ideal S1024x1024 .bf16) (xo3 xo4 : Vec Ideal S1x1024 .f32) :
    out1_B_3 c i a2 h2 a3 h3 a4 h4 a5 h5 a6 h6 hc x0 x1 xo3 xo4 = k1_pay7 x0 x1 xo3 := by
  unfold out1_B_3
  rw [View.read_writes_eq_canon _ _ _ (cover1_B_3 c i a2 h2 a3 h3 a4 h4 a5 h5 a6 h6 hc x0 x1 xo3 xo4)]
  unfold kernelRun1_B
  dsimp only
  sl_unfold_words
  rw [View.canon_unit_zero (S := S1x1024) hz]
  simp only [View.readAt_eq_ld, h2.read_unread, h3.read_unread, h5.read_unread,
    View.ld_unit_zero (S := S1024x1024) hz, View.ld_unit_zero (S := S1x1024) hz]

/-- The same point leaves in the running-sum buffer, which held `xo4`, the rescaled sum `k1_pay8`. -/
theorem piece_B_l (c : Dev nD) (i : grid1.Coords)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1x1024 .f32) (h6 : a6.IsWhole) (hc : ¬cond1_0 i)
    (x0 x1 : Vec Ideal S1024x1024 .bf16) (xo3 xo4 : Vec Ideal S1x1024 .f32) :
    out1_B_4 c i a2 h2 a3 h3 a4 h4 a5 h5 a6 h6 hc x0 x1 xo3 xo4 = k1_pay8 x0 x1 xo3 xo4 := by
  unfold out1_B_4
  rw [View.read_writes_eq_canon _ _ _ (cover1_B_4 c i a2 h2 a3 h3 a4 h4 a5 h5 a6 h6 hc x0 x1 xo3 xo4)]
  unfold kernelRun1_B
  dsimp only
  sl_unfold_words
  rw [View.canon_unit_zero (S := S1x1024) hz]
  simp only [View.readAt_eq_ld, h2.read_unread, h3.read_unread, h5.read_unread, h6.read_unread,
    View.ld_unit_zero (S := S1024x1024) hz, View.ld_unit_zero (S := S1x1024) hz]

/-- A resetting point: the body stores `-∞` (`k1_pay1`) into the running-maximum buffer, reads it back, and leaves the
    new maximum over that. -/
theorem piece_A_m (c : Dev nD) (i : grid1.Coords)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1x1024 .f32) (h6 : a6.IsWhole) (hc : cond1_0 i)
    (x0 x1 : Vec Ideal S1024x1024 .bf16) :
    out1_A_3 c i a2 h2 a3 h3 a4 h4 a5 h5 a6 h6 hc x0 x1 = k1_pay7 x0 x1 (k1_pay1 (F := Ideal)) := by
  unfold out1_A_3
  rw [View.read_writes_eq_canon _ _ _ (cover1_A_3 c i a2 h2 a3 h3 a4 h4 a5 h5 a6 h6 hc x0 x1)]
  unfold kernelRun1_A
  dsimp only
  sl_unfold_words
  rw [View.canon_cons_unit_zero (S := S1x1024) hz, View.readCov_unit_zero (S := S1x1024) _ hz]
  simp only [View.readAt_eq_ld, h2.read_unread, h3.read_unread,
    View.ld_unit_zero (S := S1024x1024) hz, View.ld_unit_zero (S := S1x1024) hz]

/-- The same point stores `0` (`k1_pay2`) into the running-sum buffer, reads both resets back, and leaves the rescaled
    sum over them. -/
theorem piece_A_l (c : Dev nD) (i : grid1.Coords)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1x1024 .f32) (h6 : a6.IsWhole) (hc : cond1_0 i)
    (x0 x1 : Vec Ideal S1024x1024 .bf16) :
    out1_A_4 c i a2 h2 a3 h3 a4 h4 a5 h5 a6 h6 hc x0 x1
      = k1_pay8 x0 x1 (k1_pay1 (F := Ideal)) (k1_pay2 (F := Ideal)) := by
  unfold out1_A_4
  rw [View.read_writes_eq_canon _ _ _ (cover1_A_4 c i a2 h2 a3 h3 a4 h4 a5 h5 a6 h6 hc x0 x1)]
  unfold kernelRun1_A
  dsimp only
  sl_unfold_words
  rw [View.canon_cons_unit_zero (S := S1x1024) hz]
  simp only [View.readAt_eq_ld, h2.read_unread, h3.read_unread, View.readCov_unit_zero (S := S1x1024) _ hz,
    View.ld_unit_zero (S := S1024x1024) hz, View.ld_unit_zero (S := S1x1024) hz]

/-! ## The body's arithmetic at an index -/

/-- The contraction's left operand index: row of the output, -/
theorem lhs_dot_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and the contracted coordinate; -/
theorem lhs_dot_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand's: the contracted coordinate, -/
theorem rhs_dot_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- and the column of the output. -/
theorem rhs_dot_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The score block: the product of the first block with the transpose of the second reads, at `(r, jj)`, the sum over
    the 1024 features of row `r` of the first times row `jj` of the second. -/
theorem score_apply (x0 x1 : Vec Ideal S1024x1024 .bf16) (r jj : Fin 1024) :
    k1_pay3 x0 x1 (ValueIdx.ix2 r jj) = ∑ d : Fin 1024, x0 (ValueIdx.ix2 r d) * x1 (ValueIdx.ix2 jj d) := by
  unfold k1_pay3
  dsimp only
  simp only [shapeCast_self, matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ValueIdx.ix2 r jj) ((ValueIdx.contrEquiv1 dot_S1024x1024_S1024x1024_S1024x1024_1_0_0_1_n_n 1024 rfl rfl).symm k) = ValueIdx.ix2 r k := funext fun a => Fin.ext (by
    match a with
    | ⟨0, _⟩ => exact lhs_dot_0 _ _
    | ⟨1, _⟩ => exact (lhs_dot_1 _ _).trans hk)
  have er : dot_S1024x1024_S1024x1024_S1024x1024_1_0_0_1_n_n.rhsIdx (ValueIdx.ix2 r jj) ((ValueIdx.contrEquiv1 dot_S1024x1024_S1024x1024_S1024x1024_1_0_0_1_n_n 1024 rfl rfl).symm k) = ValueIdx.ix2 k jj := funext fun a => Fin.ext (by
    match a with
    | ⟨0, _⟩ => exact (rhs_dot_0 _ _).trans hk
    | ⟨1, _⟩ => exact rhs_dot_1 _ _)
  rw [el, er, ValueIdx.transpose_ix2_apply]

/-- A reduced index with the row put back is `(r, jj)`. -/
theorem lift_red (jj r : Fin 1024) : reduces_S1024x1024_S1024.lift (ValueIdx.ix1 jj) r = ValueIdx.ix2 r jj :=
  funext fun a => Fin.ext (by
    match a with
    | ⟨0, _⟩ => rfl
    | ⟨1, _⟩ => rfl)

/-- The column maximum of a `[1024, 1024]` block, cast to a row: at `(0, jj)` the fold of `max` from `-∞` over the
    rows of column `jj`. -/
theorem colmax_apply (s : FVec Ideal S1024x1024 .f32) (u : Fin 1) (jj : Fin 1024) :
    shapeCast S1x1024 (multiReduction .maximumf [0] S1024 s 0xFF800000#32 reduces_S1024x1024_S1024 (.inl rfl) rfl) shapeCasts_S1024_S1x1024 (ValueIdx.ix2 u jj)
      = (Finset.univ : Finset (Fin 1024)).fold max ninf (fun r => s (ValueIdx.ix2 r jj)) := by
  refine (ValueIdx.shapeCast_a_1a_apply _ shapeCasts_S1024_S1x1024 u jj).trans ?_
  refine (Ideal.multiReduction_maximumf_single s 0xFF800000#32 reduces_S1024x1024_S1024 (.inl rfl) rfl (ValueIdx.ix1 jj)).trans ?_
  refine congrArg (fun f => (Finset.univ : Finset (Fin 1024)).fold max ninf f) (funext fun r => ?_)
  exact congrArg s (lift_red jj r)

/-- The column sum likewise: at `(0, jj)` the sum over the rows of column `jj`. -/
theorem colsum_apply (s : FVec Ideal S1024x1024 .f32) (u : Fin 1) (jj : Fin 1024) :
    shapeCast S1x1024 (multiReduction .add [0] S1024 s 0x00000000#32 reduces_S1024x1024_S1024 (.inl rfl) rfl) shapeCasts_S1024_S1x1024 (ValueIdx.ix2 u jj)
      = ∑ r : Fin 1024, s (ValueIdx.ix2 r jj) := by
  refine (ValueIdx.shapeCast_a_1a_apply _ shapeCasts_S1024_S1x1024 u jj).trans ?_
  refine (Ideal.multiReduction_add_single s 0x00000000#32 reduces_S1024x1024_S1024 (.inl rfl) rfl (ValueIdx.ix1 jj)).trans ?_
  exact Finset.sum_congr rfl fun r _ => congrArg s (lift_red jj r)

/-- The new running maximum at `(0, jj)`: the previous one against the block's column maximum. -/
theorem newmax_apply (x0 x1 : Vec Ideal S1024x1024 .bf16) (mp : Vec Ideal S1x1024 .f32) (jj : Fin 1024) :
    k1_pay7 x0 x1 mp (ValueIdx.ix2 (0 : Fin 1) jj)
      = max (mp (ValueIdx.ix2 (0 : Fin 1) jj))
          ((Finset.univ : Finset (Fin 1024)).fold max ninf (fun r => k1_pay3 x0 x1 (ValueIdx.ix2 r jj))) := by
  unfold k1_pay7 k1_pay6 k1_pay5
  dsimp only
  simp only [shapeCast_self]
  refine (ValueIdx.maximumf_apply _ _ _).trans ?_
  exact congrArg (max (mp (ValueIdx.ix2 (0 : Fin 1) jj))) (colmax_apply (k1_pay3 x0 x1) 0 jj)

/-- The new running sum at `(0, jj)`: the previous one rescaled by `exp (m_old − m_new)`, plus the block's column sum of
    `exp (s − m_new)`. -/
theorem newsum_apply (x0 x1 : Vec Ideal S1024x1024 .bf16) (mp lp : Vec Ideal S1x1024 .f32) (jj : Fin 1024) :
    k1_pay8 x0 x1 mp lp (ValueIdx.ix2 (0 : Fin 1) jj)
      = lp (ValueIdx.ix2 (0 : Fin 1) jj) * Ideal.exp (mp (ValueIdx.ix2 (0 : Fin 1) jj) - k1_pay7 x0 x1 mp (ValueIdx.ix2 (0 : Fin 1) jj))
        + ∑ r : Fin 1024, Ideal.exp (k1_pay3 x0 x1 (ValueIdx.ix2 r jj) - k1_pay7 x0 x1 mp (ValueIdx.ix2 (0 : Fin 1) jj)) := by
  unfold k1_pay8 k1_pay6 k1_pay5
  dsimp only
  simp only [shapeCast_self]
  refine (ValueIdx.addf_apply _ _ _).trans ?_
  refine congrArg₂ (· + ·) rfl ?_
  refine (colsum_apply _ 0 jj).trans ?_
  refine Finset.sum_congr rfl fun r _ => ?_
  show Ideal.exp (k1_pay3 x0 x1 (ValueIdx.ix2 r jj) - broadcastTo S1024x1024 (k1_pay7 x0 x1 mp) broadcasts_S1x1024_S1024x1024 (ValueIdx.ix2 r jj)) = _
  rw [ValueIdx.broadcastTo_1b_ab_apply]

/-! ## The input blocks -/

/-- The block of the first input array (the scaled queries) at point `t`, -/
abbrev qblk (c : Dev nD) (t : Fin cfg1.N) : Vec Ideal S1024x1024 .bf16 := iblk1 V c 0 t
/-- and of the second (the keys). -/
abbrev kblk (c : Dev nD) (t : Fin cfg1.N) : Vec Ideal S1024x1024 .bf16 := iblk1 V c 1 t

/-- The first input array as the region finds it, -/
abbrev qarr (c : Dev nD) : Vec Ideal S4096x1024 .bf16 := V c main_v9_0
/-- and the second. -/
abbrev karr (c : Dev nD) : Vec Ideal S4096x1024 .bf16 := V c main_v9_1

/-- The index maps at each of the sixteen points of the grid: at point `t = 4·ki + qi` the first input's block is row block `qi`,
    the second's row block `ki`, and the two statistics' blocks sit at column block `ki`. -/
theorem idx_facts : ∀ t : Fin cfg1.N,
    win1_0.index t (0 : Fin 2) = t.val % 4 ∧ win1_0.index t (1 : Fin 2) = 0
    ∧ win1_1.index t (0 : Fin 2) = t.val / 4 ∧ win1_1.index t (1 : Fin 2) = 0
    ∧ win1_3.index t (0 : Fin 2) = 0 ∧ win1_3.index t (1 : Fin 2) = t.val / 4
    ∧ win1_4.index t (0 : Fin 2) = 0 ∧ win1_4.index t (1 : Fin 2) = t.val / 4 :=
  (by decide +kernel : ∀ t : Fin grid1.N, _)

/-- Row `r` of the first input's block at point `t` is row `1024·(t % 4) + r` of the array. -/
theorem qblk_apply (c : Dev nD) (t : Fin cfg1.N) (r d : Fin 1024) (i : Fin 4096) (hi : i.val = 1024 * (t.val % 4) + r.val) :
    qblk V c t (ValueIdx.ix2 r d) = qarr V c (ValueIdx.ix2 i d) := by
  obtain ⟨e0, e1, -⟩ := idx_facts t
  show iblk1 V c 0 t (ValueIdx.ix2 r d) = _
  unfold iblk1
  rw [View.read_apply]
  show V c main_v9_0 _ = V c main_v9_0 _
  congr 1
  funext a
  apply Fin.ext
  match a with
  | ⟨0, _⟩ => show win1_0.index t (0 : Fin 2) * 1024 + 1 * r.val = i.val; rw [e0, hi]; omega
  | ⟨1, _⟩ => show win1_0.index t (1 : Fin 2) * 1024 + 1 * d.val = d.val; rw [e1]; omega

/-- Row `jj` of the second input's block at point `t` is row `1024·(t / 4) + jj` of the array. -/
theorem kblk_apply (c : Dev nD) (t : Fin cfg1.N) (jj d : Fin 1024) (j : Fin 4096) (hj : j.val = 1024 * (t.val / 4) + jj.val) :
    kblk V c t (ValueIdx.ix2 jj d) = karr V c (ValueIdx.ix2 j d) := by
  obtain ⟨-, -, e0, e1, -⟩ := idx_facts t
  show iblk1 V c 1 t (ValueIdx.ix2 jj d) = _
  unfold iblk1
  rw [View.read_apply]
  show V c main_v9_1 _ = V c main_v9_1 _
  congr 1
  funext a
  apply Fin.ext
  match a with
  | ⟨0, _⟩ => show win1_1.index t (0 : Fin 2) * 1024 + 1 * jj.val = j.val; rw [e0, hj]; omega
  | ⟨1, _⟩ => show win1_1.index t (1 : Fin 2) * 1024 + 1 * d.val = d.val; rw [e1]; omega

/-- So the score block at point `t` is the block of the scores at rows `1024·(t % 4) + ·`, columns `1024·(t / 4) + ·`. -/
theorem sblk_apply (c : Dev nD) (t : Fin cfg1.N) (r jj : Fin 1024) (i j : Fin 4096)
    (hi : i.val = 1024 * (t.val % 4) + r.val) (hj : j.val = 1024 * (t.val / 4) + jj.val) :
    k1_pay3 (qblk V c t) (kblk V c t) (ValueIdx.ix2 r jj) = scr' V c i j := by
  rw [score_apply]
  show _ = ∑ d : Fin 1024, qarr V c (ValueIdx.ix2 i d) * karr V c (ValueIdx.ix2 j d)
  exact Finset.sum_congr rfl fun d _ => by rw [qblk_apply V c t r d i hi, kblk_apply V c t jj d j hj]

/-! ## What the two statistics' buffers hold after each point -/

/-- At a resetting point the two buffers hold the update of the reset values by the point's blocks. -/
theorem outs_A (c : Dev nD) (t : Fin cfg1.N) (h0 : t.val % 4 = 0) :
    (outsAt1 V c t.val t.isLt).2.1 = k1_pay7 (qblk V c t) (kblk V c t) (k1_pay1 (F := Ideal))
    ∧ (outsAt1 V c t.val t.isLt).2.2 = k1_pay8 (qblk V c t) (kblk V c t) (k1_pay1 (F := Ideal)) (k1_pay2 (F := Ideal)) := by
  rw [outsAt1_A V c t h0]
  dsimp only
  exact ⟨piece_A_m c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t),
    piece_A_l c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)⟩

/-- At any other point they hold the update, by the point's blocks, of what the point before left. -/
theorem outs_B (c : Dev nD) (t : Fin cfg1.N) (h0 : ¬t.val % 4 = 0) :
    (outsAt1 V c t.val t.isLt).2.1
      = k1_pay7 (qblk V c t) (kblk V c t) (outsAt1 V c (t.val - 1) (Nat.lt_of_le_of_lt (Nat.sub_le _ _) t.isLt)).2.1
    ∧ (outsAt1 V c t.val t.isLt).2.2
      = k1_pay8 (qblk V c t) (kblk V c t) (outsAt1 V c (t.val - 1) (Nat.lt_of_le_of_lt (Nat.sub_le _ _) t.isLt)).2.1
          (outsAt1 V c (t.val - 1) (Nat.lt_of_le_of_lt (Nat.sub_le _ _) t.isLt)).2.2 := by
  rw [outsAt1_B V c t h0]
  dsimp only
  exact ⟨piece_B_m c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1 (outsAt1 V c (t.val - 1) (Nat.lt_of_le_of_lt (Nat.sub_le _ _) t.isLt)).2.2,
    piece_B_l c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1 (outsAt1 V c (t.val - 1) (Nat.lt_of_le_of_lt (Nat.sub_le _ _) t.isLt)).2.2⟩

/-! ## The invariant: the buffers hold the specification's running statistics -/

/-- The column maximum of the score block at point `t` is the specification's maximum over row block `t % 4`. -/
theorem bmax_eq (c : Dev nD) (t : Fin cfg1.N) (jj : Fin 1024) (j : Fin 4096) (hj : j.val = 1024 * (t.val / 4) + jj.val) :
    (Finset.univ : Finset (Fin 1024)).fold max ninf (fun r => k1_pay3 (qblk V c t) (kblk V c t) (ValueIdx.ix2 r jj))
      = bmax (scr' V c) j (t.val % 4) := by
  unfold bmax
  refine congrArg (fun f => (Finset.univ : Finset (Fin 1024)).fold max ninf f) (funext fun r => ?_)
  exact sblk_apply V c t r jj (rowAt (t.val % 4) r) j
    (by show (1024 * (t.val % 4) + r.val) % 4096 = _; have := r.isLt; omega) hj

/-- Its column sum of exponentials is the specification's over row block `t % 4`. -/
theorem bsum_eq (c : Dev nD) (t : Fin cfg1.N) (jj : Fin 1024) (j : Fin 4096) (hj : j.val = 1024 * (t.val / 4) + jj.val) (μ : EReal) :
    ∑ r : Fin 1024, Ideal.exp (k1_pay3 (qblk V c t) (kblk V c t) (ValueIdx.ix2 r jj) - μ)
      = bsum (scr' V c) j (t.val % 4) μ := by
  unfold bsum
  refine Finset.sum_congr rfl fun r _ => ?_
  rw [sblk_apply V c t r jj (rowAt (t.val % 4) r) j
    (by show (1024 * (t.val % 4) + r.val) % 4096 = _; have := r.isLt; omega) hj]

/-- After a resetting point (the first row block of a column block) the buffers hold, at column `j`, the statistics after
    row block `0`: the maximum of `-∞` and the block's, and `0 · exp (-∞ − m) + Σ exp (s − m)`. -/
theorem inv_A (c : Dev nD) (t : Fin cfg1.N) (h0 : t.val % 4 = 0) (jj : Fin 1024) (j : Fin 4096)
    (hj : j.val = 1024 * (t.val / 4) + jj.val) :
    (outsAt1 V c t.val t.isLt).2.1 (ValueIdx.ix2 (0 : Fin 1) jj) = mrun (scr' V c) j 0
    ∧ (outsAt1 V c t.val t.isLt).2.2 (ValueIdx.ix2 (0 : Fin 1) jj) = lrun (scr' V c) j 0 := by
  obtain ⟨em, el⟩ := outs_A V c t h0
  have hb := bmax_eq V c t jj j hj
  rw [h0] at hb
  have hs := bsum_eq V c t jj j hj (mrun (scr' V c) j 0)
  rw [h0] at hs
  have hm : k1_pay7 (qblk V c t) (kblk V c t) (k1_pay1 (F := Ideal)) (ValueIdx.ix2 (0 : Fin 1) jj) = mrun (scr' V c) j 0 := by
    rw [newmax_apply, hb]; rfl
  refine ⟨by rw [em]; exact hm, ?_⟩
  rw [el, newsum_apply, hm, hs]
  rfl

/-- After any other point: the step of the specification's recursions from what the point before left. -/
theorem inv_B (c : Dev nD) (t : Fin cfg1.N) (h0 : ¬t.val % 4 = 0) (jj : Fin 1024) (j : Fin 4096)
    (hj : j.val = 1024 * (t.val / 4) + jj.val) (n : ℕ) (hn : t.val % 4 = n + 1)
    (ihm : (outsAt1 V c (t.val - 1) (Nat.lt_of_le_of_lt (Nat.sub_le _ _) t.isLt)).2.1 (ValueIdx.ix2 (0 : Fin 1) jj) = mrun (scr' V c) j n)
    (ihl : (outsAt1 V c (t.val - 1) (Nat.lt_of_le_of_lt (Nat.sub_le _ _) t.isLt)).2.2 (ValueIdx.ix2 (0 : Fin 1) jj) = lrun (scr' V c) j n) :
    (outsAt1 V c t.val t.isLt).2.1 (ValueIdx.ix2 (0 : Fin 1) jj) = mrun (scr' V c) j (n + 1)
    ∧ (outsAt1 V c t.val t.isLt).2.2 (ValueIdx.ix2 (0 : Fin 1) jj) = lrun (scr' V c) j (n + 1) := by
  obtain ⟨em, el⟩ := outs_B V c t h0
  have hb := bmax_eq V c t jj j hj
  rw [hn] at hb
  have hs := bsum_eq V c t jj j hj (mrun (scr' V c) j (n + 1))
  rw [hn] at hs
  have hm : k1_pay7 (qblk V c t) (kblk V c t) (outsAt1 V c (t.val - 1) (Nat.lt_of_le_of_lt (Nat.sub_le _ _) t.isLt)).2.1 (ValueIdx.ix2 (0 : Fin 1) jj)
      = mrun (scr' V c) j (n + 1) := by
    rw [newmax_apply, ihm, hb]; rfl
  refine ⟨by rw [em]; exact hm, ?_⟩
  rw [el, newsum_apply, hm, ihm, ihl, hs]
  rfl

/-- THE INVARIANT, by induction on the point: after point `n = 4·ki + qi` the two buffers hold, at `(0, jj)`, the running
    maximum and the running rescaled sum of column `1024·ki + jj` after row blocks `0 … qi`. -/
theorem inv (c : Dev nD) : ∀ (n : ℕ) (h : n < cfg1.N) (jj : Fin 1024) (j : Fin 4096), j.val = 1024 * (n / 4) + jj.val →
    (outsAt1 V c n h).2.1 (ValueIdx.ix2 (0 : Fin 1) jj) = mrun (scr' V c) j (n % 4)
    ∧ (outsAt1 V c n h).2.2 (ValueIdx.ix2 (0 : Fin 1) jj) = lrun (scr' V c) j (n % 4)
  | 0, h, jj, j, hj => inv_A V c ⟨0, h⟩ rfl jj j hj
  | n + 1, h, jj, j, hj => by
    by_cases h0 : (n + 1) % 4 = 0
    · rw [h0]; exact inv_A V c ⟨n + 1, h⟩ h0 jj j hj
    · have hd : (n + 1) / 4 = n / 4 := by omega
      have hm : (n + 1) % 4 = n % 4 + 1 := by omega
      obtain ⟨ihm, ihl⟩ := inv c n (Nat.lt_of_succ_lt h) jj j (by rw [hj, hd])
      rw [hm]
      exact inv_B V c ⟨n + 1, h⟩ h0 jj j hj (n % 4) hm ihm ihl

/-! ## From the blocks to the arrays -/

/-- At a point that writes back (`t % 4 = 3`) the running maximum's buffer holds the maximum after all four row blocks. -/
theorem inv_m_at (c : Dev nD) (t : Fin cfg1.N) (h3 : t.val % 4 = 3) (y : S1x1024.Idx) (j : Fin 4096)
    (hj : j.val = 1024 * (t.val / 4) + (y 1).val) :
    (outsAt1 V c t.val t.isLt).2.1 y = mrun (scr' V c) j 3 := by
  obtain ⟨u, jj, rfl⟩ : ∃ (u : Fin 1) (jj : Fin 1024), y = ValueIdx.ix2 u jj := ⟨y 0, y 1, ValueIdx.eq_ix2 y⟩
  obtain rfl : u = 0 := Subsingleton.elim _ _
  have h := (inv V c t.val t.isLt jj j hj).1
  rw [h3] at h
  exact h

/-- and the running sum's the rescaled sum after all four. -/
theorem inv_l_at (c : Dev nD) (t : Fin cfg1.N) (h3 : t.val % 4 = 3) (y : S1x1024.Idx) (j : Fin 4096)
    (hj : j.val = 1024 * (t.val / 4) + (y 1).val) :
    (outsAt1 V c t.val t.isLt).2.2 y = lrun (scr' V c) j 3 := by
  obtain ⟨u, jj, rfl⟩ : ∃ (u : Fin 1) (jj : Fin 1024), y = ValueIdx.ix2 u jj := ⟨y 0, y 1, ValueIdx.eq_ix2 y⟩
  obtain rfl : u = 0 := Subsingleton.elim _ _
  have h := (inv V c t.val t.isLt jj j hj).2
  rw [h3] at h
  exact h

/-- WHAT A WRITING-BACK POINT WRITES BACK for the running maximum is its block of the row of final maxima. -/
theorem flushed_m (c : Dev nD) (t : Fin cfg1.N) (hf : (cfg1.win 3).flush t = true) :
    (dat1 V c).flushed 3 t
      = ((cfg1.win 3).blk t).view.read (Elt Ideal) (unmat (a := 1) (b := 4096) (fun _ j => mrun (scr' V c) j 3)) := by
  have h3 : t.val % 4 = 3 := (flush1_3 t).mp hf
  obtain ⟨-, -, -, -, e0, e1, -, -⟩ := idx_facts t
  show (cfg1.win 3).cut (grid1.coords t) ((dat1 V c).after 3 t) = _
  rw [after1_3]
  funext y
  show (outsAt1 V c t.val t.isLt).2.1 y = mrun (scr' V c) (((cfg1.win 3).blk t).view.emb y 1) 3
  exact inv_m_at V c t h3 y _ (by show win1_3.index t (1 : Fin 2) * 1024 + 1 * (y 1).val = _; rw [e1]; omega)

/-- The same for the running sum. -/
theorem flushed_l (c : Dev nD) (t : Fin cfg1.N) (hf : (cfg1.win 4).flush t = true) :
    (dat1 V c).flushed 4 t
      = ((cfg1.win 4).blk t).view.read (Elt Ideal) (unmat (a := 1) (b := 4096) (fun _ j => lrun (scr' V c) j 3)) := by
  have h3 : t.val % 4 = 3 := (flush1_4 t).mp hf
  obtain ⟨-, -, -, -, -, -, e0, e1⟩ := idx_facts t
  show (cfg1.win 4).cut (grid1.coords t) ((dat1 V c).after 4 t) = _
  rw [after1_4]
  funext y
  show (outsAt1 V c t.val t.isLt).2.2 y = lrun (scr' V c) (((cfg1.win 4).blk t).view.emb y 1) 3
  exact inv_l_at V c t h3 y _ (by show win1_4.index t (1 : Fin 2) * 1024 + 1 * (y 1).val = _; rw [e1]; omega)

/-- An index of the maxima's array is in point `t`'s block iff each coordinate is in the block's range on its axis. -/
theorem mem_blk_m (t : Fin cfg1.N) (i : S1x4096.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v10_1).slice (win1_3.rect t)).set ↔ _
  rw [View.set_slice_whole, Rect.mem_set_unit]
  exact Iff.rfl

/-- The same for the sums' array. -/
theorem mem_blk_l (t : Fin cfg1.N) (i : S1x4096.Idx) :
    i ∈ ((cfg1.win 4).blk t).view.set ↔ ∀ a : Fin 2, win1_4.index t a * S1x1024.size a ≤ (i a).val ∧ (i a).val < win1_4.index t a * S1x1024.size a + S1x1024.size a := by
  show i ∈ ((View.whole main_v10_2).slice (win1_4.rect t)).set ↔ _
  rw [View.set_slice_whole, Rect.mem_set_unit]
  exact Iff.rfl

/-- Column `j` is written back by the last point of its column block, `4·(j / 1024) + 3`. -/
theorem cover_m (i : S1x4096.Idx) : ∃ t : Fin cfg1.N, (cfg1.win 3).flush t = true ∧ i ∈ ((cfg1.win 3).blk t).view.set := by
  have hN : cfg1.N = 16 := N_1
  have h0 : (i 0).val < 1 := (i 0).isLt
  have h1 : (i 1).val < 4096 := (i 1).isLt
  have hlt : 4 * ((i 1).val / 1024) + 3 < cfg1.N := by rw [hN]; omega
  obtain ⟨-, -, -, -, e0, e1, -, -⟩ := idx_facts ⟨4 * ((i 1).val / 1024) + 3, hlt⟩
  refine ⟨⟨4 * ((i 1).val / 1024) + 3, hlt⟩, (flush1_3 _).mpr (by show (4 * ((i 1).val / 1024) + 3) % 4 = 3; omega), ?_⟩
  rw [mem_blk_m]
  intro a
  match a with
  | ⟨0, _⟩ =>
    show win1_3.index ⟨4 * ((i 1).val / 1024) + 3, hlt⟩ (0 : Fin 2) * 1 ≤ (i 0).val ∧ (i 0).val < win1_3.index ⟨4 * ((i 1).val / 1024) + 3, hlt⟩ (0 : Fin 2) * 1 + 1
    rw [e0]; omega
  | ⟨1, _⟩ =>
    show win1_3.index ⟨4 * ((i 1).val / 1024) + 3, hlt⟩ (1 : Fin 2) * 1024 ≤ (i 1).val ∧ (i 1).val < win1_3.index ⟨4 * ((i 1).val / 1024) + 3, hlt⟩ (1 : Fin 2) * 1024 + 1024
    rw [e1]
    show (4 * ((i 1).val / 1024) + 3) / 4 * 1024 ≤ (i 1).val ∧ (i 1).val < (4 * ((i 1).val / 1024) + 3) / 4 * 1024 + 1024
    omega

/-- The same for the sums' array. -/
theorem cover_l (i : S1x4096.Idx) : ∃ t : Fin cfg1.N, (cfg1.win 4).flush t = true ∧ i ∈ ((cfg1.win 4).blk t).view.set := by
  have hN : cfg1.N = 16 := N_1
  have h0 : (i 0).val < 1 := (i 0).isLt
  have h1 : (i 1).val < 4096 := (i 1).isLt
  have hlt : 4 * ((i 1).val / 1024) + 3 < cfg1.N := by rw [hN]; omega
  obtain ⟨-, -, -, -, -, -, e0, e1⟩ := idx_facts ⟨4 * ((i 1).val / 1024) + 3, hlt⟩
  refine ⟨⟨4 * ((i 1).val / 1024) + 3, hlt⟩, (flush1_4 _).mpr (by show (4 * ((i 1).val / 1024) + 3) % 4 = 3; omega), ?_⟩
  rw [mem_blk_l]
  intro a
  match a with
  | ⟨0, _⟩ =>
    show win1_4.index ⟨4 * ((i 1).val / 1024) + 3, hlt⟩ (0 : Fin 2) * 1 ≤ (i 0).val ∧ (i 0).val < win1_4.index ⟨4 * ((i 1).val / 1024) + 3, hlt⟩ (0 : Fin 2) * 1 + 1
    rw [e0]; omega
  | ⟨1, _⟩ =>
    show win1_4.index ⟨4 * ((i 1).val / 1024) + 3, hlt⟩ (1 : Fin 2) * 1024 ≤ (i 1).val ∧ (i 1).val < win1_4.index ⟨4 * ((i 1).val / 1024) + 3, hlt⟩ (1 : Fin 2) * 1024 + 1024
    rw [e1]
    show (4 * ((i 1).val / 1024) + 3) / 4 * 1024 ≤ (i 1).val ∧ (i 1).val < (4 * ((i 1).val / 1024) + 3) / 4 * 1024 + 1024
    omega

end Stats

/-- REGION 1, second output: after the region it holds, at `(0, j)`, column `j`'s running maximum after all four
    row blocks; -/
theorem arr_m (c : Dev nD) : (dat1 V c).arrAt 3 cfg1.N = unmat (a := 1) (b := 4096) (fun _ j => mrun (scr' V c) j 3) :=
  (dat1 V c).arrAt_eq_of_cover 3 (unmat (a := 1) (b := 4096) (fun _ j => mrun (scr' V c) j 3)) (Stats.flushed_m V c) Stats.cover_m

/-- third output: column `j`'s running rescaled sum of exponentials after all four row blocks. -/
theorem arr_l (c : Dev nD) : (dat1 V c).arrAt 4 cfg1.N = unmat (a := 1) (b := 4096) (fun _ j => lrun (scr' V c) j 3) :=
  (dat1 V c).arrAt_eq_of_cover 4 (unmat (a := 1) (b := 4096) (fun _ j => lrun (scr' V c) j 3)) (Stats.flushed_l V c) Stats.cover_l

end Cert.KernelIdeal.Val

end
-- ==== Proof.Region2.lean ====
import proofs.«402450_j31344671326318_3_alg».proof.Proof.Gen.KernelIdeal.Frame
import proofs.«402450_j31344671326318_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Cert.ColSoftmax

namespace Cert.KernelIdeal.Val

open Cert.KernelIdeal Cert.KernelIdeal.Gen

/-- The zero offsets of a whole-block access, as the constant function. -/
theorem hz2 : (![0, 0] : Fin 2 → Nat) = fun _ => 0 := funext fun a => by fin_cases a <;> rfl

section Pieces

variable {F : FTy → Type} [FloatOps F]

/-- A point that does not open a row block (`ki ≠ 0`): over the running contents `xo` of the output block the body
    leaves its one covering store's payload, `xo + exp (S − shift) · v` of the point's three input blocks. -/
theorem out_B (c : Dev nD) (i : grid2.Coords) (a0 : Memref sig .tc .vmem S1024x1024 .bf16) (h0 : a0.IsWhole)
    (a1 : Memref sig .tc .vmem S1024x1024 .bf16) (h1 : a1.IsWhole) (a2 : Memref sig .tc .vmem S1x1024 .f32) (h2 : a2.IsWhole)
    (a3 : Memref sig .tc .vmem S1024x1024 .f32) (h3 : a3.IsWhole) (hc : ¬cond2_0 i)
    (x0 x1 : Vec F S1024x1024 .bf16) (x2 : Vec F S1x1024 .f32) (xo : Vec F S1024x1024 .f32) :
    out2_B_3 c i a0 h0 a1 h1 a2 h2 a3 h3 hc x0 x1 x2 xo = k2_pay2 x0 x1 x2 xo := by
  unfold out2_B_3
  rw [View.read_writes_eq_canon _ _ _ (cover2_B_3 c i a0 h0 a1 h1 a2 h2 a3 h3 hc x0 x1 x2 xo)]
  unfold kernelRun2_B
  dsimp only
  sl_unfold_words
  rw [View.canon_unit_zero hz2]
  simp only [View.readAt_eq_ld, h0.read_unread, h1.read_unread, h2.read_unread, h3.read_unread,
    View.ld_unit_zero (S := S1024x1024) hz2, View.ld_unit_zero (S := S1x1024) hz2]

/-- A point that opens a row block (`ki = 0`): the body first stores the zero block, reads it back, and leaves the
    update's payload over it. -/
theorem out_A (c : Dev nD) (i : grid2.Coords) (a0 : Memref sig .tc .vmem S1024x1024 .bf16) (h0 : a0.IsWhole)
    (a1 : Memref sig .tc .vmem S1024x1024 .bf16) (h1 : a1.IsWhole) (a2 : Memref sig .tc .vmem S1x1024 .f32) (h2 : a2.IsWhole)
    (a3 : Memref sig .tc .vmem S1024x1024 .f32) (h3 : a3.IsWhole) (hc : cond2_0 i)
    (x0 x1 : Vec F S1024x1024 .bf16) (x2 : Vec F S1x1024 .f32) :
    out2_A_3 c i a0 h0 a1 h1 a2 h2 a3 h3 hc x0 x1 x2 = k2_pay2 x0 x1 x2 (k2_pay1 (F := F)) := by
  unfold out2_A_3
  rw [View.read_writes_eq_canon _ _ _ (cover2_A_3 c i a0 h0 a1 h1 a2 h2 a3 h3 hc x0 x1 x2)]
  unfold kernelRun2_A
  dsimp only
  sl_unfold_words
  rw [View.canon_cons_unit_zero (S := S1024x1024) hz2, View.readCov_unit_zero (S := S1024x1024) _ hz2]
  simp only [View.readAt_eq_ld, h0.read_unread, h1.read_unread, h2.read_unread,
    View.ld_unit_zero (S := S1024x1024) hz2, View.ld_unit_zero (S := S1x1024) hz2]

end Pieces

/-! ## The update's payload at an entry

The product `P · v` of two `1024 × 1024` blocks contracts the left operand's columns with the right operand's rows:
at the output entry `(r, d)` and the contraction coordinate `k` it reads the left operand at `(r, k)` and the right
one at `(k, d)`. -/

theorem lhs_pv_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_pv_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_pv_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_pv_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The update's payload at the entry `(r, d)` of the block: the previous contents there plus
    `Σ_k exp (S (r, k) − shift k) · v (k, d)` over the block's 1024 columns. -/
theorem pay2_apply (x0 x1 : FVec Ideal S1024x1024 .bf16) (x2 : FVec Ideal S1x1024 .f32) (xo : FVec Ideal S1024x1024 .f32)
    (r d : Fin 1024) :
    k2_pay2 (F := Ideal) x0 x1 x2 xo (ValueIdx.ix2 r d)
      = xo (ValueIdx.ix2 r d) + ∑ k : Fin 1024,
          Ideal.exp (x0 (ValueIdx.ix2 r k) - x2 (ValueIdx.ix2 (0 : Fin 1) k)) * x1 (ValueIdx.ix2 k d) := by
  unfold k2_pay2
  simp only [shapeCast_self]
  refine (ValueIdx.addf_apply _ _ (ValueIdx.ix2 r d)).trans ?_
  refine congrArg (fun z => xo (ValueIdx.ix2 r d) + z) ?_
  refine (Ideal.matmul_constant_zero_apply dot_S1024x1024_S1024x1024_S1024x1024_1_0_0_1_n_n none _ _ (ValueIdx.ix2 r d)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ValueIdx.ix2 r d) ((ValueIdx.contrEquiv1 dot_S1024x1024_S1024x1024_S1024x1024_1_0_0_1_n_n 1024 rfl rfl).symm k) = ValueIdx.ix2 r k := funext fun a => Fin.ext (by
    match a with
    | ⟨0, _⟩ => exact lhs_pv_0 _ _
    | ⟨1, _⟩ => exact (lhs_pv_1 _ _).trans hk)
  have er : dot_S1024x1024_S1024x1024_S1024x1024_1_0_0_1_n_n.rhsIdx (ValueIdx.ix2 r d) ((ValueIdx.contrEquiv1 dot_S1024x1024_S1024x1024_S1024x1024_1_0_0_1_n_n 1024 rfl rfl).symm k) = ValueIdx.ix2 k d := funext fun a => Fin.ext (by
    match a with
    | ⟨0, _⟩ => exact (rhs_pv_0 _ _).trans hk
    | ⟨1, _⟩ => exact rhs_pv_1 _ _)
  rw [el, er]
  refine congrArg (fun z => z * x1 (ValueIdx.ix2 k d)) ?_
  show Ideal.exp (x0 (ValueIdx.ix2 r k) - broadcastTo S1024x1024 x2 broadcasts_S1x1024_S1024x1024 (ValueIdx.ix2 r k)) = _
  rw [ValueIdx.broadcastTo_1b_ab_apply]

-- the TensorCore's buffer contents when the region is entered, at the extended reals
variable (V : (c : Dev nD) → (b : Ref sig .tc) → Buf (Elt Ideal) ((c : Thread nD τ).loc b))

/-! ## The blocks the windows read

At the grid point `t = 4·qi + ki` the score window reads block `(qi, ki)` of the `4096 × 4096` scores, the value window
the row block `ki` of `v`, the shift window the column block `ki` of the shift row, and the output window the row block
`qi` of the result. -/

/-- The printed index maps of the four windows, decided over the sixteen grid points. -/
theorem idx_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = t.val % 4
    ∧ win2_3.index t (0 : Fin 2) = t.val / 4 ∧ win2_3.index t (1 : Fin 2) = 0 :=
  (by decide +kernel : ∀ t : Fin grid2.N, _)

/-- The score block, the value block and the shift block at a point, and the three arrays the region finds. -/
abbrev sblk (c : Dev nD) (t : Fin cfg2.N) : FVec Ideal S1024x1024 .bf16 := iblk2 V c 0 t
abbrev vblk (c : Dev nD) (t : Fin cfg2.N) : FVec Ideal S1024x1024 .bf16 := iblk2 V c 1 t
abbrev hblk (c : Dev nD) (t : Fin cfg2.N) : FVec Ideal S1x1024 .f32 := iblk2 V c 2 t
abbrev sarr (c : Dev nD) : FVec Ideal S4096x4096 .bf16 := V c main_v10_0
abbrev varr (c : Dev nD) : FVec Ideal S4096x1024 .bf16 := V c main_v9_2
abbrev harr (c : Dev nD) : FVec Ideal S1x4096 .f32 := V c main_v12

/-- The score block at `(r, k)` is the score matrix at `(1024·qi + r, 1024·ki + k)`. -/
theorem sblk_apply (c : Dev nD) (t : Fin cfg2.N) (r k : Fin 1024) (i j : Fin 4096)
    (hi : i.val = 1024 * (t.val / 4) + r.val) (hj : j.val = 1024 * (t.val % 4) + k.val) :
    sblk V c t (ValueIdx.ix2 r k) = sarr V c (ValueIdx.ix2 i j) := by
  obtain ⟨e0, e1, -, -, -, -, -, -⟩ := idx_facts t
  show ((cfg2.win 0).blk t).view.read (Elt Ideal) (V c (Pipeline.arrRef spec2 0)) (ValueIdx.ix2 r k) = _
  rw [View.read_apply]
  show V c main_v10_0 (((cfg2.win 0).blk t).view.emb (ValueIdx.ix2 r k)) = V c main_v10_0 (ValueIdx.ix2 i j)
  refine congrArg (V c main_v10_0) (funext fun a => Fin.ext ?_)
  match a with
  | ⟨0, _⟩ => show win2_0.index t (0 : Fin 2) * 1024 + 1 * r.val = i.val; omega
  | ⟨1, _⟩ => show win2_0.index t (1 : Fin 2) * 1024 + 1 * k.val = j.val; omega

/-- The value block at `(k, d)` is `v` at `(1024·ki + k, d)`. -/
theorem vblk_apply (c : Dev nD) (t : Fin cfg2.N) (k d : Fin 1024) (j : Fin 4096)
    (hj : j.val = 1024 * (t.val % 4) + k.val) :
    vblk V c t (ValueIdx.ix2 k d) = varr V c (ValueIdx.ix2 j d) := by
  obtain ⟨-, -, e0, e1, -, -, -, -⟩ := idx_facts t
  show ((cfg2.win 1).blk t).view.read (Elt Ideal) (V c (Pipeline.arrRef spec2 1)) (ValueIdx.ix2 k d) = _
  rw [View.read_apply]
  show V c main_v9_2 (((cfg2.win 1).blk t).view.emb (ValueIdx.ix2 k d)) = V c main_v9_2 (ValueIdx.ix2 j d)
  refine congrArg (V c main_v9_2) (funext fun a => Fin.ext ?_)
  match a with
  | ⟨0, _⟩ => show win2_1.index t (0 : Fin 2) * 1024 + 1 * k.val = j.val; omega
  | ⟨1, _⟩ => show win2_1.index t (1 : Fin 2) * 1024 + 1 * d.val = d.val; omega

/-- The shift block at `(0, k)` is the shift row at `(0, 1024·ki + k)`. -/
theorem hblk_apply (c : Dev nD) (t : Fin cfg2.N) (k : Fin 1024) (j : Fin 4096)
    (hj : j.val = 1024 * (t.val % 4) + k.val) :
    hblk V c t (ValueIdx.ix2 (0 : Fin 1) k) = harr V c (ValueIdx.ix2 (0 : Fin 1) j) := by
  obtain ⟨-, -, -, -, e0, e1, -, -⟩ := idx_facts t
  show ((cfg2.win 2).blk t).view.read (Elt Ideal) (V c (Pipeline.arrRef spec2 2)) (ValueIdx.ix2 (0 : Fin 1) k) = _
  rw [View.read_apply]
  show V c main_v12 (((cfg2.win 2).blk t).view.emb (ValueIdx.ix2 (0 : Fin 1) k)) = V c main_v12 (ValueIdx.ix2 (0 : Fin 1) j)
  refine congrArg (V c main_v12) (funext fun a => Fin.ext ?_)
  match a with
  | ⟨0, _⟩ => show win2_2.index t (0 : Fin 2) * 1 + 1 * 0 = 0; omega
  | ⟨1, _⟩ => show win2_2.index t (1 : Fin 2) * 1024 + 1 * k.val = j.val; omega

/-! ## The running contents of the output block

Over the four points `4·qi, …, 4·qi + 3` of a row block the output block starts from zero and gains, at the point with
column block `ki`, the product term `pterm … ki` of that column block. -/

/-- The score matrix, the shift row and the value matrix the region finds, as matrices. -/
abbrev Smat (c : Dev nD) : Mat 4096 4096 := mat (a := 4096) (b := 4096) (V c main_v10_0)
abbrev shv (c : Dev nD) : Fin 4096 → EReal := fun j => mat (a := 1) (b := 4096) (V c main_v12) 0 j
abbrev Vmat (c : Dev nD) : Mat 4096 1024 := mat (a := 4096) (b := 1024) (V c main_v9_2)

/-- The result matrix: zero plus the four column blocks' product terms, added in order. -/
abbrev outMat (c : Dev nD) : Mat 4096 1024 :=
  fun i d => zero + ∑ s ∈ Finset.range 4, pterm (Smat V c) (shv V c) (Vmat V c) i d s

/-- The sum the update adds at the point `t = 4·qi + ki`, at the block entry `(r, d)`, is the product term of column
    block `ki` at the row `1024·qi + r`: the blocks' entries are the arrays' entries at `rowAt ki k`. -/
theorem point_term (c : Dev nD) (t : Fin cfg2.N) (r d : Fin 1024) (i : Fin 4096)
    (hi : i.val = 1024 * (t.val / 4) + r.val) :
    (∑ k : Fin 1024, Ideal.exp (sblk V c t (ValueIdx.ix2 r k) - hblk V c t (ValueIdx.ix2 (0 : Fin 1) k))
        * vblk V c t (ValueIdx.ix2 k d))
      = pterm (Smat V c) (shv V c) (Vmat V c) i d (t.val % 4) := by
  unfold pterm
  refine Finset.sum_congr rfl fun k _ => ?_
  have hj : (rowAt (t.val % 4) k).val = 1024 * (t.val % 4) + k.val := by
    show (1024 * (t.val % 4) + k.val) % 4096 = _
    have := k.isLt; omega
  rw [sblk_apply V c t r k i (rowAt (t.val % 4) k) hi hj, vblk_apply V c t k d (rowAt (t.val % 4) k) hj,
    hblk_apply V c t k (rowAt (t.val % 4) k) hj]
  rfl

/-- A point that opens a row block leaves zero plus its own product term. -/
theorem outs_open (c : Dev nD) (t : Fin cfg2.N) (h0 : t.val % 4 = 0) (r d : Fin 1024) (i : Fin 4096)
    (hi : i.val = 1024 * (t.val / 4) + r.val) :
    outsAt2 V c t.val t.isLt (ValueIdx.ix2 r d) = zero + pterm (Smat V c) (shv V c) (Vmat V c) i d (t.val % 4) := by
  rw [outsAt2_A V c t h0]
  refine (congrFun (out_A (F := Ideal) c (grid2.coords t) (ms2_0 t) (hs2_0 t) (ms2_1 t) (hs2_1 t) (ms2_2 t) (hs2_2 t) (ms2_3 t) (hs2_3 t) ((hcond2_0 t).mpr h0)
    (sblk V c t) (vblk V c t) (hblk V c t)) (ValueIdx.ix2 r d)).trans ?_
  refine (pay2_apply (sblk V c t) (vblk V c t) (hblk V c t) (k2_pay1 (F := Ideal)) r d).trans ?_
  rw [point_term V c t r d i hi]
  rfl

/-- Every other point adds its product term to what the point before left. -/
theorem outs_step (c : Dev nD) (t : Fin cfg2.N) (h0 : ¬t.val % 4 = 0) (r d : Fin 1024) (i : Fin 4096)
    (hi : i.val = 1024 * (t.val / 4) + r.val) :
    outsAt2 V c t.val t.isLt (ValueIdx.ix2 r d)
      = (outsAt2 V c (t.val - 1) (Nat.lt_of_le_of_lt (Nat.sub_le _ _) t.isLt)) (ValueIdx.ix2 r d)
        + pterm (Smat V c) (shv V c) (Vmat V c) i d (t.val % 4) := by
  rw [outsAt2_B V c t h0]
  refine (congrFun (out_B (F := Ideal) c (grid2.coords t) (ms2_0 t) (hs2_0 t) (ms2_1 t) (hs2_1 t) (ms2_2 t) (hs2_2 t) (ms2_3 t) (hs2_3 t) (fun h => h0 ((hcond2_0 t).mp h))
    (sblk V c t) (vblk V c t) (hblk V c t) (outsAt2 V c (t.val - 1) (Nat.lt_of_le_of_lt (Nat.sub_le _ _) t.isLt))) (ValueIdx.ix2 r d)).trans ?_
  refine (pay2_apply (sblk V c t) (vblk V c t) (hblk V c t) (outsAt2 V c (t.val - 1) (Nat.lt_of_le_of_lt (Nat.sub_le _ _) t.isLt)) r d).trans ?_
  rw [point_term V c t r d i hi]

/-- After the point `n = 4·qi + ki` the block holds, at `(r, d)`, zero plus the product terms of the column blocks
    `0 … ki` at the row `1024·qi + r` — by induction on the point. -/
theorem outs_apply (c : Dev nD) (n : ℕ) : ∀ (h : n < cfg2.N) (r d : Fin 1024) (i : Fin 4096),
    i.val = 1024 * (n / 4) + r.val →
    outsAt2 V c n h (ValueIdx.ix2 r d)
      = zero + ∑ s ∈ Finset.range (n % 4 + 1), pterm (Smat V c) (shv V c) (Vmat V c) i d s := by
  induction n with
  | zero =>
    intro h r d i hi
    refine (outs_open V c ⟨0, h⟩ rfl r d i hi).trans ?_
    show zero + pterm _ _ _ i d 0 = zero + ∑ s ∈ Finset.range 1, pterm _ _ _ i d s
    rw [Finset.sum_range_one]
  | succ n ih =>
    intro h r d i hi
    by_cases h0 : (n + 1) % 4 = 0
    · refine (outs_open V c ⟨n + 1, h⟩ h0 r d i hi).trans ?_
      show zero + pterm _ _ _ i d ((n + 1) % 4) = _
      rw [h0, Finset.sum_range_one]
    · refine (outs_step V c ⟨n + 1, h⟩ h0 r d i hi).trans ?_
      show outsAt2 V c n _ (ValueIdx.ix2 r d) + pterm _ _ _ i d ((n + 1) % 4) = _
      rw [ih (Nat.lt_of_succ_lt h) r d i (by omega)]
      have e : (n + 1) % 4 = n % 4 + 1 := by omega
      rw [e, Finset.sum_range_succ _ (n % 4 + 1), add_assoc]

/-! ## From the blocks to the array -/

/-- The point `4·qi + 3` writes back row block `qi` of the result matrix. -/
theorem flushed_eq (c : Dev nD) (t : Fin cfg2.N) (hf : (cfg2.win 3).flush t = true) :
    (dat2 V c).flushed 3 t
      = ((cfg2.win 3).blk t).view.read (Elt Ideal) (unmat (a := 4096) (b := 1024) (outMat V c)) := by
  have h3 : t.val % 4 = 3 := (flush2_3 t).mp hf
  have hN : t.val < 16 := lt_of_lt_of_eq t.isLt (show cfg2.N = 16 from N_2)
  obtain ⟨-, -, -, -, -, -, e0, e1⟩ := idx_facts t
  show (cfg2.win 3).cut (grid2.coords t) ((dat2 V c).after 3 t) = _
  rw [after2_3]
  funext y
  obtain ⟨r, d, rfl⟩ : ∃ (r d : Fin 1024), y = ValueIdx.ix2 r d := ⟨y 0, y 1, ValueIdx.eq_ix2 y⟩
  rw [View.read_apply]
  have hlt : 1024 * (t.val / 4) + r.val < 4096 := by have := r.isLt; omega
  have ei : (⟨1024 * (t.val / 4) + r.val, hlt⟩ : Fin 4096) = ((cfg2.win 3).blk t).view.emb (ValueIdx.ix2 r d) 0 :=
    Fin.ext (by show 1024 * (t.val / 4) + r.val = win2_3.index t (0 : Fin 2) * 1024 + 1 * r.val; omega)
  have ed : d = ((cfg2.win 3).blk t).view.emb (ValueIdx.ix2 r d) 1 :=
    Fin.ext (by show d.val = win2_3.index t (1 : Fin 2) * 1024 + 1 * d.val; omega)
  show outsAt2 V c t.val t.isLt (ValueIdx.ix2 r d)
    = outMat V c (((cfg2.win 3).blk t).view.emb (ValueIdx.ix2 r d) 0) (((cfg2.win 3).blk t).view.emb (ValueIdx.ix2 r d) 1)
  refine (outs_apply V c t.val t.isLt r d ⟨1024 * (t.val / 4) + r.val, hlt⟩ rfl).trans ?_
  rw [h3]
  exact congrArg₂ (fun i' d' => zero + ∑ s ∈ Finset.range 4, pterm (Smat V c) (shv V c) (Vmat V c) i' d' s) ei ed

/-- Row `i` of the result lies in the block the point `4·(i / 1024) + 3` writes back. -/
theorem covered (c : Dev nD) (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 16 := N_2
  have ht : 4 * ((i 0).val / 1024) + 3 < cfg2.N := by omega
  have hm : (4 * ((i 0).val / 1024) + 3) % 4 = 3 := by omega
  refine ⟨⟨4 * ((i 0).val / 1024) + 3, ht⟩, (flush2_3 ⟨4 * ((i 0).val / 1024) + 3, ht⟩).mpr hm, ?_⟩
  obtain ⟨-, -, -, -, -, -, e0, e1⟩ := idx_facts ⟨4 * ((i 0).val / 1024) + 3, ht⟩
  have e0' : win2_3.index ⟨4 * ((i 0).val / 1024) + 3, ht⟩ (0 : Fin 2) = (4 * ((i 0).val / 1024) + 3) / 4 := e0
  show i ∈ ((View.whole main_v13).slice (win2_3.rect ⟨4 * ((i 0).val / 1024) + 3, ht⟩)).set
  rw [View.set_slice_whole, Rect.mem_set_unit]
  intro a
  match a with
  | ⟨0, _⟩ =>
    show win2_3.index ⟨4 * ((i 0).val / 1024) + 3, ht⟩ (0 : Fin 2) * 1024 ≤ (i 0).val
      ∧ (i 0).val < win2_3.index ⟨4 * ((i 0).val / 1024) + 3, ht⟩ (0 : Fin 2) * 1024 + 1024
    omega
  | ⟨1, _⟩ =>
    show win2_3.index ⟨4 * ((i 0).val / 1024) + 3, ht⟩ (1 : Fin 2) * 1024 ≤ (i 1).val
      ∧ (i 1).val < win2_3.index ⟨4 * ((i 0).val / 1024) + 3, ht⟩ (1 : Fin 2) * 1024 + 1024
    omega

/-- REGION 2 (the normalised product). After the region the output array holds, at `(i, d)`, zero plus the four
    column blocks' products `Σ exp (s i j − shift j) · v j d`, added in order. -/
theorem arr_o (c : Dev nD) : (dat2 V c).arrAt 3 cfg2.N
    = unmat (a := 4096) (b := 1024) (fun i d => zero + ∑ s ∈ Finset.range 4,
        pterm (mat (a := 4096) (b := 4096) (V c main_v10_0)) (fun j => mat (a := 1) (b := 4096) (V c main_v12) 0 j)
          (mat (a := 4096) (b := 1024) (V c main_v9_2)) i d s) :=
  (dat2 V c).arrAt_eq_of_cover 3 (unmat (a := 4096) (b := 1024) (outMat V c)) (flushed_eq V c) (covered c)

end Cert.KernelIdeal.Val

end
-- ==== Proof.KernelValue.lean ====
/-
  The kernel's result array, as a function of the nine argument arrays.

  The three regions are chained through the buffer contents at each boundary: the host operations before the first
  region transpose the weight matrices and turn each bias vector into a row; region 0 leaves the scaled `Q`, `K` and
  `V`; region 1 the scores and each column's running maximum and rescaled sum; the two host operations after it the
  shift `m + log l`; region 2 the normalised product. Composed, the result array is `kernelOut` of the arguments read
  as matrices and vectors.
-/
import proofs.«402450_j31344671326318_3_alg».proof.Proof.Gen.KernelIdeal.Frame
import proofs.«402450_j31344671326318_3_alg».proof.Proof.Spec
import proofs.«402450_j31344671326318_3_alg».proof.Proof.Region0
import proofs.«402450_j31344671326318_3_alg».proof.Proof.Region1
import proofs.«402450_j31344671326318_3_alg».proof.Proof.Region1Stats
import proofs.«402450_j31344671326318_3_alg».proof.Proof.Region2
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Cert.ColSoftmax

namespace Cert.KernelIdeal.Val

open Cert.KernelIdeal Cert.KernelIdeal.Gen

variable (m : (ℓ : Loc nD τ sig) → Buf (Elt Ideal) ℓ) (ρ : Dev nD → PrngReg)

/-! ## The host operations before region 0 -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results

/-- The weight arrays the region reads are the argument matrices transposed (the change of format is the identity). -/
theorem V1_v1 (c : Dev nD) : V1 m ρ c main_v1 = (truncf .bf16 (transpose S1024x1024 [1, 0] (m ((c : Thread nD τ).loc main_arg3)) transposes_S1024x1024_S1024x1024_1_0) bitsLt_bf16_f32 : FVec Ideal S1024x1024 .bf16) := by
  show StableHlo.after hostOps0 (W0 m ρ c) (Proc.devRef .tc main_v1) = _
  after_results
theorem V1_v3 (c : Dev nD) : V1 m ρ c main_v3 = (truncf .bf16 (transpose S1024x1024 [1, 0] (m ((c : Thread nD τ).loc main_arg5)) transposes_S1024x1024_S1024x1024_1_0) bitsLt_bf16_f32 : FVec Ideal S1024x1024 .bf16) := by
  show StableHlo.after hostOps0 (W0 m ρ c) (Proc.devRef .tc main_v3) = _
  after_results
theorem V1_v5 (c : Dev nD) : V1 m ρ c main_v5 = (truncf .bf16 (transpose S1024x1024 [1, 0] (m ((c : Thread nD τ).loc main_arg7)) transposes_S1024x1024_S1024x1024_1_0) bitsLt_bf16_f32 : FVec Ideal S1024x1024 .bf16) := by
  show StableHlo.after hostOps0 (W0 m ρ c) (Proc.devRef .tc main_v5) = _
  after_results

/-- The bias rows are the argument vectors reshaped to one row. -/
theorem V1_v6 (c : Dev nD) : V1 m ρ c main_v6 = (shapeCast S1x1024 (m ((c : Thread nD τ).loc main_arg4)) shapeCasts_S1024_S1x1024 : FVec Ideal S1x1024 .f32) := by
  show StableHlo.after hostOps0 (W0 m ρ c) (Proc.devRef .tc main_v6) = _
  after_results
  rfl
theorem V1_v7 (c : Dev nD) : V1 m ρ c main_v7 = (shapeCast S1x1024 (m ((c : Thread nD τ).loc main_arg6)) shapeCasts_S1024_S1x1024 : FVec Ideal S1x1024 .f32) := by
  show StableHlo.after hostOps0 (W0 m ρ c) (Proc.devRef .tc main_v7) = _
  after_results
  rfl
theorem V1_v8 (c : Dev nD) : V1 m ρ c main_v8 = (shapeCast S1x1024 (m ((c : Thread nD τ).loc main_arg8)) shapeCasts_S1024_S1x1024 : FVec Ideal S1x1024 .f32) := by
  show StableHlo.after hostOps0 (W0 m ρ c) (Proc.devRef .tc main_v8) = _
  after_results
  rfl

/-- A transposed matrix read at `(k, d)` is the matrix at `(d, k)`. -/
theorem mat_transpose (X : FVec Ideal S1024x1024 .f32) :
    mat (a := 1024) (b := 1024) (truncf .bf16 (transpose S1024x1024 [1, 0] X transposes_S1024x1024_S1024x1024_1_0) bitsLt_bf16_f32 : FVec Ideal S1024x1024 .bf16)
      = fun k d => mat (a := 1024) (b := 1024) X d k := by
  funext k d
  exact ValueIdx.transpose_ix2_apply X transposes_S1024x1024_S1024x1024_1_0 k d

/-- A vector reshaped to one row, read at `(0, d)`, is the vector at `d`. -/
theorem mat_row (x : FVec Ideal S1024 .f32) :
    mat (a := 1) (b := 1024) (shapeCast S1x1024 x shapeCasts_S1024_S1x1024 : FVec Ideal S1x1024 .f32) = fun _ d => vec (a := 1024) x d := by
  funext u d
  exact ValueIdx.shapeCast_a_1a_apply x shapeCasts_S1024_S1x1024 u d

/-! ## Region 0: the three projections -/

/-- The arguments as matrices and vectors. -/
abbrev mq (c : Dev nD) : Mat 4096 1024 := mat (a := 4096) (b := 1024) (m ((c : Thread nD τ).loc main_arg0))
abbrev mk (c : Dev nD) : Mat 4096 1024 := mat (a := 4096) (b := 1024) (m ((c : Thread nD τ).loc main_arg1))
abbrev mv (c : Dev nD) : Mat 4096 1024 := mat (a := 4096) (b := 1024) (m ((c : Thread nD τ).loc main_arg2))
abbrev mWq (c : Dev nD) : Mat 1024 1024 := mat (a := 1024) (b := 1024) (m ((c : Thread nD τ).loc main_arg3))
abbrev mWk (c : Dev nD) : Mat 1024 1024 := mat (a := 1024) (b := 1024) (m ((c : Thread nD τ).loc main_arg5))
abbrev mWv (c : Dev nD) : Mat 1024 1024 := mat (a := 1024) (b := 1024) (m ((c : Thread nD τ).loc main_arg7))
abbrev vbq (c : Dev nD) : Fin 1024 → EReal := vec (a := 1024) (m ((c : Thread nD τ).loc main_arg4))
abbrev vbk (c : Dev nD) : Fin 1024 → EReal := vec (a := 1024) (m ((c : Thread nD τ).loc main_arg6))
abbrev vbv (c : Dev nD) : Fin 1024 → EReal := vec (a := 1024) (m ((c : Thread nD τ).loc main_arg8))

theorem Q_eq (c : Dev nD) : (dat0 (V1 m ρ) c).arrAt 9 cfg0.N = unmat (a := 4096) (b := 1024) (scaled (lin (mq m c) (mWq m c) (vbq m c))) := by
  rw [arr_q, V1_arg0, V1_v1, V1_v6, mat_transpose, mat_row]
  rfl

theorem K_eq (c : Dev nD) : (dat0 (V1 m ρ) c).arrAt 10 cfg0.N = unmat (a := 4096) (b := 1024) (lin (mk m c) (mWk m c) (vbk m c)) := by
  rw [arr_k, V1_arg1, V1_v3, V1_v7, mat_transpose, mat_row]
  rfl

theorem V_eq (c : Dev nD) : (dat0 (V1 m ρ) c).arrAt 11 cfg0.N = unmat (a := 4096) (b := 1024) (lin (mv m c) (mWv m c) (vbv m c)) := by
  rw [arr_v, V1_arg2, V1_v5, V1_v8, mat_transpose, mat_row]
  rfl

/-! ## Region 1: the scores and the column statistics -/

theorem V2_q (c : Dev nD) : V2 m ρ c main_v9_0 = (dat0 (V1 m ρ) c).arrAt 9 cfg0.N := (hF0 m ρ c 9).symm
theorem V2_k (c : Dev nD) : V2 m ρ c main_v9_1 = (dat0 (V1 m ρ) c).arrAt 10 cfg0.N := (hF0 m ρ c 10).symm

/-- The kernel's scores: the scaled `Q` times `Kᵀ`. -/
abbrev sK (c : Dev nD) : Mat 4096 4096 := dotT (scaled (lin (mq m c) (mWq m c) (vbq m c))) (lin (mk m c) (mWk m c) (vbk m c))

theorem scr_eq (c : Dev nD) : scr (V2 m ρ) c = sK m c := by
  show dotT (mat (a := 4096) (b := 1024) (V2 m ρ c main_v9_0)) (mat (a := 4096) (b := 1024) (V2 m ρ c main_v9_1)) = _
  rw [V2_q, V2_k, Q_eq, K_eq]
  rfl

theorem scr'_eq (c : Dev nD) : scr' (V2 m ρ) c = sK m c := scr_eq m ρ c

theorem V4_s (c : Dev nD) : V4 m ρ c main_v10_0 = unmat (a := 4096) (b := 4096) (sK m c) := by
  show StableHlo.after hostOps2 (W3 m ρ c) (Proc.devRef .tc main_v10_0) = _
  after_results
  rw [show W3 m ρ c (Proc.devRef .tc main_v10_0) = _ from W3_arr m ρ c 2, arr_s, scr_eq]

/-- The shift row: the running maximum plus the logarithm of the running sum. -/
theorem V4_sh (c : Dev nD) : (fun j => mat (a := 1) (b := 4096) (V4 m ρ c main_v12) 0 j) = shiftK (sK m c) := by
  have e : V4 m ρ c main_v12 = (addf ((dat1 (V2 m ρ) c).arrAt 3 cfg1.N : FVec Ideal S1x4096 .f32) (Host.log ((dat1 (V2 m ρ) c).arrAt 4 cfg1.N : FVec Ideal S1x4096 .f32)) : FVec Ideal S1x4096 .f32) := by
    show StableHlo.after hostOps2 (W3 m ρ c) (Proc.devRef .tc main_v12) = _
    after_results
    rw [show W3 m ρ c (Proc.devRef .tc main_v10_1) = _ from W3_arr m ρ c 3, show W3 m ρ c (Proc.devRef .tc main_v10_2) = _ from W3_arr m ρ c 4]
  rw [e, arr_m, arr_l, scr'_eq]
  rfl

theorem V4_v (c : Dev nD) : V4 m ρ c main_v9_2 = unmat (a := 4096) (b := 1024) (lin (mv m c) (mWv m c) (vbv m c)) := by
  show StableHlo.after hostOps2 (W3 m ρ c) (Proc.devRef .tc main_v9_2) = _
  after_results
  rw [W3_of_ne m ρ c main_v9_2 (by decide), show W2 m ρ c (Proc.devRef .tc main_v9_2) = _ from W2_arr m ρ c 11, V_eq]

/-! ## Region 2: the result -/

/-- The kernel's result array is `kernelOut` of the argument arrays. -/
theorem result_eq (c : Dev nD) : W5 m ρ c (Proc.devRef .tc main_v13)
    = unmat (a := 4096) (b := 1024) (kernelOut (mq m c) (mk m c) (mv m c) (mWq m c) (mWk m c) (mWv m c) (vbq m c) (vbk m c) (vbv m c)) := by
  rw [show W5 m ρ c (Proc.devRef .tc main_v13) = _ from W5_arr m ρ c 3, arr_o, V4_sh, V4_s, V4_v]
  rfl

end Cert.KernelIdeal.Val

end
-- ==== Proof.RefValue.lean ====
/-
  The reference, read: its result array is `refOut` of its argument arrays.

  Each stage of the reference is read at an index built from coordinates, one lemma per named quantity of the
  specification: the three linear layers, the scores, a column's maximum, the exponentials, a column's sum of
  exponentials, and the final product with `V`. Every lemma goes through an index; no two whole arrays are compared.
-/
import proofs.«402450_j31344671326318_3_alg».proof.Proof.Gen.ReferenceIdeal.Run
import proofs.«402450_j31344671326318_3_alg».proof.Proof.Gen.ReferenceIdeal.Read
import proofs.«402450_j31344671326318_3_alg».proof.Proof.Spec
import Idealize.ShloMosaic.PureOps.Reduce

noncomputable section

open Idealize.ShloMosaic Idealize.ShloMosaic.TcCoe Idealize.SL.Sem
open Cert.ColSoftmax

namespace Cert.ReferenceIdeal.RefVal

open Cert.ReferenceIdeal Cert.ReferenceIdeal.Gen Cert.ReferenceIdeal.Read
open Idealize.ShloMosaic.ValueIdx (ix1 ix2 eq_ix1 eq_ix2)

/-- The query projection at row `i`, column `d`: the transposed weight read at `(k, d)` is the weight at `(d, k)`,
    and the bias, broadcast along the rows, is read at `d`. -/
theorem lin_q (x : (⟨S4096x1024, .f32⟩ : BufTy).Contents (Elt Ideal)) (w : (⟨S1024x1024, .f32⟩ : BufTy).Contents (Elt Ideal)) (b : (⟨S1024, .f32⟩ : BufTy).Contents (Elt Ideal)) (i : Fin 4096) (d : Fin 1024) :
    val_main_v4 (F := Ideal) x w b (ix2 i d)
      = lin (mat (a := 4096) (b := 1024) x) (mat (a := 1024) (b := 1024) w) (vec (a := 1024) b) i d := by
  have hl : ∀ k : Fin 1024, lidx_main_v1 (ix2 i d) k = ix2 i k := fun k =>
    funext fun a => Fin.ext (by match a with | ⟨0, _⟩ => rfl | ⟨1, _⟩ => rfl)
  have hr : ∀ k : Fin 1024, idx_main_v0 (ridx_main_v1 (ix2 i d) k) = ix2 d k := fun k =>
    funext fun a => Fin.ext (by match a with | ⟨0, _⟩ => rfl | ⟨1, _⟩ => rfl)
  have hb : idx_main_v2 (idx_main_v3 (ix2 i d)) = ix1 d :=
    funext fun a => Fin.ext (by match a with | ⟨0, _⟩ => rfl)
  rw [val_main_v4_apply, val_main_v1_apply, val_main_v3_apply, val_main_v2_apply, hb]
  simp only [val_main_v0_apply, hl, hr]
  rfl

/-- The key projection at row `i`, column `d`: the transposed weight read at `(k, d)` is the weight at `(d, k)`,
    and the bias, broadcast along the rows, is read at `d`. -/
theorem lin_k (x : (⟨S4096x1024, .f32⟩ : BufTy).Contents (Elt Ideal)) (w : (⟨S1024x1024, .f32⟩ : BufTy).Contents (Elt Ideal)) (b : (⟨S1024, .f32⟩ : BufTy).Contents (Elt Ideal)) (i : Fin 4096) (d : Fin 1024) :
    val_main_v9 (F := Ideal) x w b (ix2 i d)
      = lin (mat (a := 4096) (b := 1024) x) (mat (a := 1024) (b := 1024) w) (vec (a := 1024) b) i d := by
  have hl : ∀ k : Fin 1024, lidx_main_v6 (ix2 i d) k = ix2 i k := fun k =>
    funext fun a => Fin.ext (by match a with | ⟨0, _⟩ => rfl | ⟨1, _⟩ => rfl)
  have hr : ∀ k : Fin 1024, idx_main_v5 (ridx_main_v6 (ix2 i d) k) = ix2 d k := fun k =>
    funext fun a => Fin.ext (by match a with | ⟨0, _⟩ => rfl | ⟨1, _⟩ => rfl)
  have hb : idx_main_v7 (idx_main_v8 (ix2 i d)) = ix1 d :=
    funext fun a => Fin.ext (by match a with | ⟨0, _⟩ => rfl)
  rw [val_main_v9_apply, val_main_v6_apply, val_main_v8_apply, val_main_v7_apply, hb]
  simp only [val_main_v5_apply, hl, hr]
  rfl

/-- The value projection at row `i`, column `d`: the transposed weight read at `(k, d)` is the weight at `(d, k)`,
    and the bias, broadcast along the rows, is read at `d`. -/
theorem lin_v (x : (⟨S4096x1024, .f32⟩ : BufTy).Contents (Elt Ideal)) (w : (⟨S1024x1024, .f32⟩ : BufTy).Contents (Elt Ideal)) (b : (⟨S1024, .f32⟩ : BufTy).Contents (Elt Ideal)) (i : Fin 4096) (d : Fin 1024) :
    val_main_v14 (F := Ideal) x w b (ix2 i d)
      = lin (mat (a := 4096) (b := 1024) x) (mat (a := 1024) (b := 1024) w) (vec (a := 1024) b) i d := by
  have hl : ∀ k : Fin 1024, lidx_main_v11 (ix2 i d) k = ix2 i k := fun k =>
    funext fun a => Fin.ext (by match a with | ⟨0, _⟩ => rfl | ⟨1, _⟩ => rfl)
  have hr : ∀ k : Fin 1024, idx_main_v10 (ridx_main_v11 (ix2 i d) k) = ix2 d k := fun k =>
    funext fun a => Fin.ext (by match a with | ⟨0, _⟩ => rfl | ⟨1, _⟩ => rfl)
  have hb : idx_main_v12 (idx_main_v13 (ix2 i d)) = ix1 d :=
    funext fun a => Fin.ext (by match a with | ⟨0, _⟩ => rfl)
  rw [val_main_v14_apply, val_main_v11_apply, val_main_v13_apply, val_main_v12_apply, hb]
  simp only [val_main_v10_apply, hl, hr]
  rfl

/-- The scores at row `i`, column `j`: the query projection's row `i` against the key projection's row `j` (the
    transposed key projection read at `(k, j)` is the key projection at `(j, k)`), divided by the constant 4096. -/
theorem score_at (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i j : Fin 4096) :
    val_main_v18 (F := Ideal) x0 x1 x3 x4 x5 x6 (ix2 i j)
      = (scoreR (lin (mat (a := 4096) (b := 1024) x0) (mat (a := 1024) (b := 1024) x3) (vec (a := 1024) x4))
          (lin (mat (a := 4096) (b := 1024) x1) (mat (a := 1024) (b := 1024) x5) (vec (a := 1024) x6))) i j := by
  have hl : ∀ k : Fin 1024, lidx_main_v16 (ix2 i j) k = ix2 i k := fun k => funext fun a => Fin.ext (by match a with | ⟨0, _⟩ => rfl | ⟨1, _⟩ => rfl)
  have hr : ∀ k : Fin 1024, idx_main_v15 (ridx_main_v16 (ix2 i j) k) = ix2 j k := fun k => funext fun a => Fin.ext (by match a with | ⟨0, _⟩ => rfl | ⟨1, _⟩ => rfl)
  rw [val_main_v18_apply, val_main_v16_apply, val_main_v17_apply, val_main_cst_apply]
  simp only [val_main_v15_apply, hl, hr, lin_q, lin_k]
  rfl

/-- The column maximum at `j`: the reduction over the rows is the fold of `max` from `-∞` over the row coordinate (the
    index over `j` with row `k` inserted is `(k, j)`), and the reference takes one more `max` with `-∞`. -/
theorem colmax_at (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (j : Fin 4096) :
    val_main_v21 (F := Ideal) x0 x1 x3 x4 x5 x6 (ix1 j)
      = mxR (scoreR (lin (mat (a := 4096) (b := 1024) x0) (mat (a := 1024) (b := 1024) x3) (vec (a := 1024) x4))
          (lin (mat (a := 4096) (b := 1024) x1) (mat (a := 1024) (b := 1024) x5) (vec (a := 1024) x6))) j := by
  have hred : Shape.Reduces S4096x4096 [0] S4096 := by decide
  have hlift : ∀ k : Fin 4096, hred.lift (ix1 j) k = ix2 k j := fun k => funext fun a => Fin.ext (by match a with | ⟨0, _⟩ => rfl | ⟨1, _⟩ => rfl)
  have hf : (val_main_v18 (F := Ideal) x0 x1 x3 x4 x5 x6 ∘ hred.lift (ix1 j))
      = fun k : Fin 4096 => (scoreR (lin (mat (a := 4096) (b := 1024) x0) (mat (a := 1024) (b := 1024) x3) (vec (a := 1024) x4))
          (lin (mat (a := 4096) (b := 1024) x1) (mat (a := 1024) (b := 1024) x5) (vec (a := 1024) x6))) k j := funext fun k =>
    (congrArg (val_main_v18 (F := Ideal) x0 x1 x3 x4 x5 x6) (hlift k)).trans (score_at x0 x1 x3 x4 x5 x6 k j)
  rw [val_main_v21_apply, val_main_v20_apply, val_main_cst_1_apply]
  unfold val_main_v19
  rw [Host.reduce_eq_fold_single FloatOps.maximumf _ _ reducesTo_S4096x4096_S4096_d0 hred h_S_ (ix1 j),
    val_main_cst_0_apply, hf]
  rfl

/-- The exponential at `(i, j)`: the score minus its column's maximum, the maximum broadcast along the rows. -/
theorem exp_at (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (i j : Fin 4096) :
    val_main_v25 (F := Ideal) x0 x1 x3 x4 x5 x6 (ix2 i j)
      = eR (scoreR (lin (mat (a := 4096) (b := 1024) x0) (mat (a := 1024) (b := 1024) x3) (vec (a := 1024) x4))
          (lin (mat (a := 4096) (b := 1024) x1) (mat (a := 1024) (b := 1024) x5) (vec (a := 1024) x6))) i j := by
  have hb : idx_main_v22 (idx_main_v23 (ix2 i j)) = ix1 j := funext fun a => Fin.ext (by match a with | ⟨0, _⟩ => rfl)
  rw [val_main_v25_apply, val_main_v24_apply, val_main_v23_apply, val_main_v22_apply, hb, score_at, colmax_at]
  rfl

/-- The column sum at `j`: zero plus the sum over the rows of the exponentials (the summed index over `j` at row `k`
    is `(k, j)`). -/
theorem colsum_at (x0 x1 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (j : Fin 4096) :
    val_main_v26 (F := Ideal) x0 x1 x3 x4 x5 x6 (ix1 j)
      = smR (scoreR (lin (mat (a := 4096) (b := 1024) x0) (mat (a := 1024) (b := 1024) x3) (vec (a := 1024) x4))
          (lin (mat (a := 4096) (b := 1024) x1) (mat (a := 1024) (b := 1024) x5) (vec (a := 1024) x6))) j := by
  have hk : ∀ k : Fin 4096, idx_main_v26 (ix1 j) k = ix2 k j := fun k => funext fun a => Fin.ext (by match a with | ⟨0, _⟩ => rfl | ⟨1, _⟩ => rfl)
  rw [val_main_v26_apply, val_main_cst_2_apply]
  simp only [hk, exp_at]
  rfl

/-- The reference's result stage, as a function of the nine argument arrays, is the column-softmax attention
    `refOut` of them read as matrices and vectors. -/
theorem val_out_eq (x0 x1 x2 : (⟨S4096x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) :
    val_main_v30 (F := Ideal) x0 x1 x2 x3 x4 x5 x6 x7 x8
      = unmat (a := 4096) (b := 1024) (refOut (mat (a := 4096) (b := 1024) x0) (mat (a := 4096) (b := 1024) x1) (mat (a := 4096) (b := 1024) x2)
          (mat (a := 1024) (b := 1024) x3) (mat (a := 1024) (b := 1024) x5) (mat (a := 1024) (b := 1024) x7)
          (vec (a := 1024) x4) (vec (a := 1024) x6) (vec (a := 1024) x8)) := by
  funext idx
  obtain ⟨i, d, rfl⟩ : ∃ (i : Fin 4096) (d : Fin 1024), idx = ix2 i d := ⟨idx 0, idx 1, eq_ix2 idx⟩
  have hl : ∀ k : Fin 4096, lidx_main_v30 (ix2 i d) k = ix2 i k := fun k => funext fun a => Fin.ext (by match a with | ⟨0, _⟩ => rfl | ⟨1, _⟩ => rfl)
  have hr : ∀ k : Fin 4096, ridx_main_v30 (ix2 i d) k = ix2 k d := fun k => funext fun a => Fin.ext (by match a with | ⟨0, _⟩ => rfl | ⟨1, _⟩ => rfl)
  have hb : ∀ k : Fin 4096, idx_main_v27 (idx_main_v28 (ix2 i k)) = ix1 k := fun k => funext fun a => Fin.ext (by match a with | ⟨0, _⟩ => rfl)
  rw [val_main_v30_apply]
  simp only [hl, hr, val_main_v29_apply, val_main_v28_apply, val_main_v27_apply, hb, exp_at, colsum_at, lin_v]
  rfl

end Cert.ReferenceIdeal.RefVal

end
-- ==== Proof.lean ====
/-
  Column-softmax attention: a kernel of three regions against its one-pass reference, over the extended reals.

  Both programs project `q, k, v` by three linear layers, form the scores `Q Kᵀ / 4096`, normalise every COLUMN of the
  scores by a softmax over the rows and multiply by `V` (Proof/Spec.lean states both arrangements as matrices).
  The kernel folds the scale `2⁻¹²` into `Q`, keeps a running maximum `m` and a running rescaled sum `l` per column over
  four blocks of rows, subtracts `m + log l` inside one exponential, and accumulates the product with `V` over four blocks
  of columns; the reference divides by 4096 after the product, takes one maximum and one sum per column, divides by
  the sum, and multiplies once.

  - The frames of the two kernels are the generated ones; the reference's is its generated run with the result dropped.
  - `preserves`: the one rewrite of the idealization is a round trip through a narrower format, the identity on
    extended reals.
  - `algebraic`: the kernel's result array is `kernelOut` of the argument arrays (Proof/KernelValue.lean over the
    three regions' values, Proof/Region0.lean … Proof/Region2.lean, through the run that names the result,
    Proof/RunMain.lean); the reference's is `refOut` of them (Proof/RefValue.lean over the generated run); the
    precondition makes every argument entry a real number (Proof/Finite.lean); and on real arguments the two are one
    function (Proof/MathStats.lean: the blockwise statistics are the whole-column ones; Proof/MathOut.lean: the scale
    moves across the product, `exp (s − (m + log l)) = exp (s − m) / l`, the four partial sums are one sum).
-/
import proofs.«402450_j31344671326318_3_alg».proof.Defs
import proofs.«402450_j31344671326318_3_alg».proof.Proof.Gen.Kernel
import proofs.«402450_j31344671326318_3_alg».proof.Proof.Gen.Kernel.Skeleton
import proofs.«402450_j31344671326318_3_alg».proof.Proof.Gen.Kernel.Launch
import proofs.«402450_j31344671326318_3_alg».proof.Proof.Gen.Kernel.Points
import proofs.«402450_j31344671326318_3_alg».proof.Proof.Gen.Kernel.Frame
import proofs.«402450_j31344671326318_3_alg».proof.Proof.Gen.KernelIdeal
import proofs.«402450_j31344671326318_3_alg».proof.Proof.Gen.KernelIdeal.Skeleton
import proofs.«402450_j31344671326318_3_alg».proof.Proof.Gen.KernelIdeal.Launch
import proofs.«402450_j31344671326318_3_alg».proof.Proof.Gen.KernelIdeal.Points
import proofs.«402450_j31344671326318_3_alg».proof.Proof.Gen.KernelIdeal.Frame
import proofs.«402450_j31344671326318_3_alg».proof.Proof.Gen.ReferenceIdeal
import proofs.«402450_j31344671326318_3_alg».proof.Proof.Gen.ReferenceIdeal.Run
import proofs.«402450_j31344671326318_3_alg».proof.Proof.Gen.ReferenceIdeal.Read
import proofs.«402450_j31344671326318_3_alg».proof.Proof.Gen.Pre_finite_inputs
import proofs.«402450_j31344671326318_3_alg».proof.Proof.Spec
import proofs.«402450_j31344671326318_3_alg».proof.Proof.MathOut
import proofs.«402450_j31344671326318_3_alg».proof.Proof.Finite
import proofs.«402450_j31344671326318_3_alg».proof.Proof.RunMain
import proofs.«402450_j31344671326318_3_alg».proof.Proof.KernelValue
import proofs.«402450_j31344671326318_3_alg».proof.Proof.RefValue
import Idealize.ShloMosaic.Adequacy
import Idealize.ShloMosaic.Init

noncomputable section

namespace Cert.Proof

open Idealize.ShloMosaic Idealize.SL.Sem Cert.ColSoftmax

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite: a round trip through the narrower format is the identity on extended reals. -/
theorem preserves : Cert.preserves_Kernel_KernelIdeal := IdealRules.truncf_extf.statement _ .f32 .bf16

/-- Both runs end with the result array at `kernelOut` of the (agreeing) arguments: the kernel's by its value, the
    reference's by its value `refOut` and the equality of the two arrangements on real arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => unmat (a := 4096) (b := 1024) (kernelOut (Cert.KernelIdeal.Val.mq m c) (Cert.KernelIdeal.Val.mk m c) (Cert.KernelIdeal.Val.mv m c)
      (Cert.KernelIdeal.Val.mWq m c) (Cert.KernelIdeal.Val.mWk m c) (Cert.KernelIdeal.Val.mWv m c)
      (Cert.KernelIdeal.Val.vbq m c) (Cert.KernelIdeal.Val.vbk m c) (Cert.KernelIdeal.Val.vbv m c)), ?_, ?_⟩
  · exact (θ_run Cert.KernelIdeal.defs _ _).mono
      (fun r h c => ⟨(h c).1.trans (Cert.KernelIdeal.Val.result_eq m ρ c), (h c).2⟩) (Cert.KernelIdeal.Val.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    obtain ⟨f0, f1, f2, f3, f4, f5, f6, f7, f8⟩ := Cert.Pre_finite_inputs.Dec.fin_of_pre _ _ _ _ _ _ _ _ _ (hpre c)
    rw [Cert.ReferenceIdeal.Read.val_main_v30_eq, Cert.ReferenceIdeal.RefVal.val_out_eq, h0, h1, h2, h3, h4, h5, h6, h7, h8]
    exact congrArg (unmat (a := 4096) (b := 1024)) (kernelOut_eq_refOut _ _ _ _ _ _ _ _ _ f0 f1 f2 f3 f5 f7 f4 f6 f8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
